-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x257x256 : Shape := ⟨3, ![512, 257, 256]⟩
abbrev S512x256 : Shape := ⟨2, ![512, 256]⟩
abbrev S256x512 : Shape := ⟨2, ![256, 512]⟩
abbrev S256 : Shape := ⟨1, ![256]⟩
abbrev S50x256 : Shape := ⟨2, ![50, 256]⟩
abbrev S50 : Shape := ⟨1, ![50]⟩
abbrev S_ : Shape := ⟨0, ![]⟩

class Facts : Prop where
  bcast_S_S512x257x256 : S_.BroadcastsInDim S512x257x256 (![] : Fin 0 → Fin S512x257x256.rank)
  reducesTo_S512x257x256_S_d0_1_2 : S512x257x256.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S50x256 : S_.BroadcastsInDim S50x256 (![] : Fin 0 → Fin S50x256.rank)
  reducesTo_S50x256_S_d0_1 : S50x256.ReducesTo [0, 1] S_
  bcast_S_S50 : S_.BroadcastsInDim S50 (![] : Fin 0 → Fin S50.rank)
  reducesTo_S50_S_d0 : S50.ReducesTo [0] S_

variable [Facts]

def fn_part2 {F : FTy → Type} [FloatOps F] (main_arg1 : IVec S512x256 32) (main_v32 : IVec S_ 1) (main_c_12 : IVec S_ 32) : IVec S_ 1 :=
  let main_v33 : IVec S512x256 32 := broadcastInDim S512x256 ![] bcast_S_S512x256 main_c_12
  let main_v34 : IVec S512x256 1 := cmpi .slt main_arg1 main_v33
  let main_c_13 : IVec S_ 1 := constantI S_ 1 1#1
  let main_v35 : IVec S_ 1 := (fun x v => Host.reduce IntOp.andi x v reducesTo_S512x256_S_d0_1 h_S_) main_v34 main_c_13
  let main_v36 : IVec S_ 1 := andi main_v32 main_v35
  main_v36

def fn_part1 {F : FTy → Type} [FloatOps F] (main_arg1 : IVec S512x256 32) (main_arg5 : FVec F S50x256 .f32) (main_arg6 : FVec F S50 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S50x256 .f32 := Host.absf main_arg5
  let main_cst_6 : FVec F S_ .f32 := constant S_ .f32 0x7F800000#32
  let main_v20 : FVec F S50x256 .f32 := broadcastInDim S50x256 ![] bcast_S_S50x256 main_cst_6
  let main_v21 : IVec S50x256 1 := cmpf .olt main_v19 main_v20
  let main_c_7 : IVec S_ 1 := constantI S_ 1 1#1
  let main_v22 : IVec S_ 1 := (fun x v => Host.reduce IntOp.andi x v reducesTo_S50x256_S_d0_1 h_S_) main_v21 main_c_7
  let main_v23 : IVec S_ 1 := andi main_v18 main_v22
  let main_v24 : FVec F S50 .f32 := Host.absf main_arg6
  let main_cst_8 : FVec F S_ .f32 := constant S_ .f32 0x7F800000#32
  let main_v25 : FVec F S50 .f32 := broadcastInDim S50 ![] bcast_S_S50 main_cst_8
  let main_v26 : IVec S50 1 := cmpf .olt main_v24 main_v25
  let main_c_9 : IVec S_ 1 := constantI S_ 1 1#1
  let main_v27 : IVec S_ 1 := (fun x v => Host.reduce IntOp.andi x v reducesTo_S50_S_d0 h_S_) main_v26 main_c_9
  let main_v28 : IVec S_ 1 := andi main_v23 main_v27
  let main_c_10 : IVec S_ 32 := constantI S_ 32 0#32
  let main_v29 : IVec S512x256 32 := broadcastInDim S512x256 ![] bcast_S_S512x256 main_c_10
  let main_v30 : IVec S512x256 1 := cmpi .sge main_arg1 main_v29
  let main_c_11 : IVec S_ 1 := constantI S_ 1 1#1
  let main_v31 : IVec S_ 1 := (fun x v => Host.reduce IntOp.andi x v reducesTo_S512x256_S_d0_1 h_S_) main_v30 main_c_11
  let main_v32 : IVec S_ 1 := andi main_v28 main_v31
  let main_c_12 : IVec S_ 32 := constantI S_ 32 257#32
  fn_part2 (F := F) main_arg1 main_v32 main_c_12

def fn {F : FTy → Type} [FloatOps F] (main_arg0 : FVec F S512x257x256 .f32) (main_arg1 : IVec S512x256 32) (main_arg2 : FVec F S512x256 .f32) (main_arg3 : FVec F S256x512 .f32) (main_arg4 : FVec F S256 .f32) (main_arg5 : FVec F S50x256 .f32) (main_arg6 : FVec F S50 .f32) : IVec S_ 1 :=
  let main_v0 : FVec F S512x257x256 .f32 := Host.absf main_arg0
  let main_cst : FVec F S_ .f32 := constant S_ .f32 0x7F800000#32
  let main_v1 : FVec F S512x257x256 .f32 := broadcastInDim S512x257x256 ![] bcast_S_S512x257x256 main_cst
  let main_v2 : IVec S512x257x256 1 := cmpf .olt main_v0 main_v1
  let main_c : IVec S_ 1 := constantI S_ 1 1#1
  let main_v3 : IVec S_ 1 := (fun x v => Host.reduce IntOp.andi x v reducesTo_S512x257x256_S_d0_1_2 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256x512 .f32 := Host.absf main_arg3
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_arg5 main_arg6 main_v13 main_v16
-- ==== Kernel.lean ====
abbrev S512x257x256 : Shape := ⟨3, ![512, 257, 256]⟩
abbrev S512x256 : Shape := ⟨2, ![512, 256]⟩
abbrev S256x512 : Shape := ⟨2, ![256, 512]⟩
abbrev S256 : Shape := ⟨1, ![256]⟩
abbrev S50x256 : Shape := ⟨2, ![50, 256]⟩
abbrev S50 : Shape := ⟨1, ![50]⟩
abbrev S256x256 : Shape := ⟨2, ![256, 256]⟩
abbrev S256x50 : Shape := ⟨2, ![256, 50]⟩
abbrev S512x256x50 : Shape := ⟨3, ![512, 256, 50]⟩
abbrev S16x257x256 : Shape := ⟨3, ![16, 257, 256]⟩
abbrev S16x256 : Shape := ⟨2, ![16, 256]⟩
abbrev S16x256x50 : Shape := ⟨3, ![16, 256, 50]⟩
abbrev S8x257x256 : Shape := ⟨3, ![8, 257, 256]⟩
abbrev S8x256 : Shape := ⟨2, ![8, 256]⟩
abbrev S8x256x256 : Shape := ⟨3, ![8, 256, 256]⟩
abbrev S8x1x256 : Shape := ⟨3, ![8, 1, 256]⟩
abbrev S8x256x1 : Shape := ⟨3, ![8, 256, 1]⟩
abbrev S2048x256 : Shape := ⟨2, ![2048, 256]⟩
abbrev S1x256 : Shape := ⟨2, ![1, 256]⟩
abbrev S2048x50 : Shape := ⟨2, ![2048, 50]⟩
abbrev S1x50 : Shape := ⟨2, ![1, 50]⟩
abbrev S8x256x50 : Shape := ⟨3, ![8, 256, 50]⟩

abbrev nBuf : Space → Nat
  | .hbm => 16
  | .vmem => 11
  | .smem => 0
  | _ => 0

abbrev bufTy : (tb : Table) → Fin (tcTables nBuf tb) → BufTy
  | .hbm, ⟨0, _⟩ => ⟨S512x257x256, .f32⟩
  | .hbm, ⟨1, _⟩ => ⟨S512x256, .i32⟩
  | .hbm, ⟨2, _⟩ => ⟨S512x256, .f32⟩
  | .hbm, ⟨3, _⟩ => ⟨S256x512, .f32⟩
  | .hbm, ⟨4, _⟩ => ⟨S256, .f32⟩
  | .hbm, ⟨5, _⟩ => ⟨S50x256, .f32⟩
  | .hbm, ⟨6, _⟩ => ⟨S50, .f32⟩
  | .hbm, ⟨7, _⟩ => ⟨S256x256, .f32⟩
  | .hbm, ⟨8, _⟩ => ⟨S256x256, .f32⟩
  | .hbm, ⟨9, _⟩ => ⟨S256x256, .bf16⟩
  | .hbm, ⟨10, _⟩ => ⟨S256x256, .f32⟩
  | .hbm, ⟨11, _⟩ => ⟨S256x256, .f32⟩
  | .hbm, ⟨12, _⟩ => ⟨S256x256, .bf16⟩
  | .hbm, ⟨13, _⟩ => ⟨S256x50, .f32⟩
  | .hbm, ⟨14, _⟩ => ⟨S256x50, .bf16⟩
  | .hbm, ⟨15, _⟩ => ⟨S512x256x50, .f32⟩
  | .local _ .vmem, ⟨0, _⟩ => ⟨S16x257x256, .f32⟩
  | .local _ .vmem, ⟨1, _⟩ => ⟨S16x257x256, .f32⟩
  | .local _ .vmem, ⟨2, _⟩ => ⟨S16x256, .i32⟩
  | .local _ .vmem, ⟨3, _⟩ => ⟨S16x256, .i32⟩
  | .local _ .vmem, ⟨4, _⟩ => ⟨S256x256, .bf16⟩
  | .local _ .vmem, ⟨5, _⟩ => ⟨S256x256, .bf16⟩
  | .local _ .vmem, ⟨6, _⟩ => ⟨S256, .f32⟩
  | .local _ .vmem, ⟨7, _⟩ => ⟨S256x50, .bf16⟩
  | .local _ .vmem, ⟨8, _⟩ => ⟨S50, .f32⟩
  | .local _ .vmem, ⟨9, _⟩ => ⟨S16x256x50, .f32⟩
  | .local _ .vmem, ⟨10, _⟩ => ⟨S16x256x50, .f32⟩
  | _, _ => ⟨S512x257x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c2_i32 : BitVec 32 := 2#32
  let v8 : BitVec 32 := Scalar.addi c0_i32 c2_i32
  let c1_i32 : BitVec 32 := 1#32
  ⟨c0_i32, v8, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c8_i32 : BitVec 32 := 8#32
  let v9 : BitVec 32 := Scalar.muli arg9 c8_i32
  v9
def k0_off1 (k0_t1 : Fin k0_t1_loop.trips) : Fin 3 → Nat :=
  let c0_i32 : BitVec 32 := 0#32
  let c1_i32 : BitVec 32 := 1#32
  let arg9 : BitVec 32 := Scf.iv c0_i32 c1_i32 k0_t1
  let c8_i32 : BitVec 32 := 8#32
  let v9 : BitVec 32 := Scalar.muli arg9 c8_i32
  let v10 : BitVec 32 := v9
  let v11 : Index := Scalar.indexCast v10
  let c0_8 : Index := 0#32
  let c0_9 : Index := 0#32
  ![v11.toNat, 0, 0]
def k0_off2 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v9 : BitVec 32 := Scalar.muli arg9 c8_i32
  let v10 : BitVec 32 := v9
  let v13 : Index := Scalar.indexCast v10
  let c0_10 : Index := 0#32
  ![v13.toNat, 0]
def k0_off3 (k0_t1 : Fin k0_t1_loop.trips) : Fin 3 → Nat :=
  let c0_i32 : BitVec 32 := 0#32
  let c1_i32 : BitVec 32 := 1#32
  let arg9 : BitVec 32 := Scf.iv c0_i32 c1_i32 k0_t1
  let c8_i32 : BitVec 32 := 8#32
  let v9 : BitVec 32 := Scalar.muli arg9 c8_i32
  let v10 : BitVec 32 := v9
  let v54 : Index := Scalar.indexCast v10
  let c0_15 : Index := 0#32
  let c0_16 : Index := 0#32
  ![v54.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x257x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x50 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S50 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S16x256x50 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S256x512_S256x256_0_0 : S256x512.Slices ![0, 0] S256x256
  transposes_S256x256_S256x256_1_0 : S256x256.Transposes [1, 0] S256x256
  bitsLt_bf16_f32 : FTy.bits .bf16 < FTy.bits .f32
  slices_S256x512_S256x256_0_256 : S256x512.Slices ![0, 256] S256x256
  transposes_S50x256_S256x50_1_0 : S50x256.Transposes [1, 0] S256x50
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  inb_S256x50_S256x50_0_0 : ∀ a, (![0, 0] : Fin 2 → Nat) a + S256x50.size a ≤ S256x50.size a
  h_S256x50 : 0 < S256x50.numel
  shapeCasts_S256x50_S256x50 : S256x50.ShapeCasts S256x50
  inb_S50_S50_0 : ∀ a, (![0] : Fin 1 → Nat) a + S50.size a ≤ S50.size a
  h_S50 : 0 < S50.numel
  h_S8x257x256 : 0 < S8x257x256.numel
  h_S8x256 : 0 < S8x256.numel
  slices_S8x257x256_o0_0_0_S8x256x256 : S8x257x256.Slices ![0, 0, 0] S8x256x256
  slices_S8x257x256_o0_256_0_S8x1x256 : S8x257x256.Slices ![0, 256, 0] S8x1x256
  slices_S8x257x256_o0_1_0_S8x256x256 : S8x257x256.Slices ![0, 1, 0] S8x256x256
  iota_S8x256x256_d2_w32 : S8x256x256.Iotas .tc 32 [2]
  shapeCasts_S8x256_S8x256x1 : S8x256.ShapeCasts S8x256x1
  broadcasts_S8x256x1_S8x256x256 : S8x256x1.Broadcasts S8x256x256
  natLt_1_32 : 1 < 32
  broadcasts_S8x1x256_S8x256x256 : S8x1x256.Broadcasts S8x256x256
  shapeCasts_S8x256x256_S2048x256 : S8x256x256.ShapeCasts S2048x256
  shapeCasts_S256_S1x256 : S256.ShapeCasts S1x256
  broadcasts_S1x256_S2048x256 : S1x256.Broadcasts S2048x256
  shapeCasts_S50_S1x50 : S50.ShapeCasts S1x50
  broadcasts_S1x50_S2048x50 : S1x50.Broadcasts S2048x50
  shapeCasts_S2048x50_S8x256x50 : S2048x50.ShapeCasts S8x256x50
  h_S8x256x50 : 0 < S8x256x50.numel
  dot_S8x256x256_S8x256x256_S8x256x256_2_1_1_2_0_0_wf : DotDims.WF S8x256x256 S8x256x256 S8x256x256 [2] [1] [1] [2] [0] [0]
  dot_S2048x256_S256x256_S2048x256_1_0_0_1_n_n_wf : DotDims.WF S2048x256 S256x256 S2048x256 [1] [0] [0] [1] [] []
  dot_S2048x256_S256x50_S2048x50_1_0_0_1_n_n_wf : DotDims.WF S2048x256 S256x50 S2048x50 [1] [0] [0] [1] [] []
  hrank0 : 0 < grid0.rank
  k0_t1_ok : k0_t1_loop.OK
  k0_mult1_dvd : ∀ k0_t1 : Fin k0_t1_loop.trips, 8 ∣ (k0_mult1 k0_t1).toNat
  k0_off1_inb : ∀ k0_t1 : Fin k0_t1_loop.trips, ∀ a, (k0_off1 k0_t1) a + S8x257x256.size a ≤ S16x257x256.size a
  k0_off2_inb : ∀ k0_t1 : Fin k0_t1_loop.trips, ∀ a, (k0_off2 k0_t1) a + S8x256.size a ≤ S16x256.size a
  k0_off3_inb : ∀ k0_t1 : Fin k0_t1_loop.trips, ∀ a, (k0_off3 k0_t1) a + S8x256x50.size a ≤ S16x256x50.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x257x256.size a ≤ S512x257x256.size a
  hwx0_0 : ∀ i : grid0.Coords, EltTy.bits .f32 = 32 ∨ (Rect.block (s := S512x257x256) S16x257x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x256.size a ≤ S512x256.size a
  hwx0_1 : ∀ i : grid0.Coords, EltTy.bits .i32 = 32 ∨ (Rect.block (s := S512x256) S16x256.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x50.size a ≤ S256x50.size a
  hwx0_5 : ∀ i : grid0.Coords, EltTy.bits .bf16 = 32 ∨ (Rect.block (s := S256x50) S256x50.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S50.size a ≤ S50.size a
  hwx0_6 : ∀ i : grid0.Coords, EltTy.bits .f32 = 32 ∨ (Rect.block (s := S50) S50.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S16x256x50.size a ≤ S512x256x50.size a
  hwx0_7 : ∀ i : grid0.Coords, EltTy.bits .f32 = 32 ∨ (Rect.block (s := S512x256x50) S16x256x50.size (cc0_transform_7 i) (hinb0_7 i)).WholeWords (EltTy.packing .f32)

variable [Facts₀]

def dot_S8x256x256_S8x256x256_S8x256x256_2_1_1_2_0_0 : DotDims S8x256x256 S8x256x256 S8x256x256 where
  lhsContracting := [2]
  rhsContracting := [1]
  lhsNonContracting := [1]
  rhsNonContracting := [2]
  lhsBatch := [0]
  rhsBatch := [0]
  wf := dot_S8x256x256_S8x256x256_S8x256x256_2_1_1_2_0_0_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x50_S2048x50_1_0_0_1_n_n : DotDims S2048x256 S256x50 S2048x50 where
  lhsContracting := [1]
  rhsContracting := [0]
  lhsNonContracting := [0]
  rhsNonContracting := [1]
  lhsBatch := []
  rhsBatch := []
  wf := dot_S2048x256_S256x50_S2048x50_1_0_0_1_n_n_wf

abbrev win0_0 : Pipeline.Window sig grid0 :=
  Pipeline.Window.ofSpec (Memref.whole main_arg0) S16x257x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S256x50.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S50.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S16x256x50.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S512x257x256 : Shape := ⟨3, ![512, 257, 256]⟩
abbrev S512x256 : Shape := ⟨2, ![512, 256]⟩
abbrev S256x512 : Shape := ⟨2, ![256, 512]⟩
abbrev S256 : Shape := ⟨1, ![256]⟩
abbrev S50x256 : Shape := ⟨2, ![50, 256]⟩
abbrev S50 : Shape := ⟨1, ![50]⟩
abbrev S512x256x256 : Shape := ⟨3, ![512, 256, 256]⟩
abbrev S512x256x1 : Shape := ⟨3, ![512, 256, 1]⟩
abbrev S_ : Shape := ⟨0, ![]⟩
abbrev S1 : Shape := ⟨1, ![1]⟩
abbrev S1x1x1 : Shape := ⟨3, ![1, 1, 1]⟩
abbrev S512x256x512 : Shape := ⟨3, ![512, 256, 512]⟩
abbrev S1x1x256 : Shape := ⟨3, ![1, 1, 256]⟩
abbrev S512x256x50 : Shape := ⟨3, ![512, 256, 50]⟩
abbrev S1x1x50 : Shape := ⟨3, ![1, 1, 50]⟩

abbrev nBuf : Space → Nat
  | .hbm => 43
  | .vmem => 0
  | .smem => 0
  | _ => 0

abbrev bufTy : (tb : Table) → Fin (tcTables nBuf tb) → BufTy
  | .hbm, ⟨0, _⟩ => ⟨S512x257x256, .f32⟩
  | .hbm, ⟨1, _⟩ => ⟨S512x256, .i32⟩
  | .hbm, ⟨2, _⟩ => ⟨S512x256, .f32⟩
  | .hbm, ⟨3, _⟩ => ⟨S256x512, .f32⟩
  | .hbm, ⟨4, _⟩ => ⟨S256, .f32⟩
  | .hbm, ⟨5, _⟩ => ⟨S50x256, .f32⟩
  | .hbm, ⟨6, _⟩ => ⟨S50, .f32⟩
  | .hbm, ⟨7, _⟩ => ⟨S512x256x256, .f32⟩
  | .hbm, ⟨8, _⟩ => ⟨S512x256x1, .i32⟩
  | .hbm, ⟨9, _⟩ => ⟨S_, .i32⟩
  | .hbm, ⟨10, _⟩ => ⟨S512x256x1, .i32⟩
  | .hbm, ⟨11, _⟩ => ⟨S512x256x1, .i1⟩
  | .hbm, ⟨12, _⟩ => ⟨S_, .i32⟩
  | .hbm, ⟨13, _⟩ => ⟨S512x256x1, .i32⟩
  | .hbm, ⟨14, _⟩ => ⟨S512x256x1, .i32⟩
  | .hbm, ⟨15, _⟩ => ⟨S512x256x1, .i32⟩
  | .hbm, ⟨16, _⟩ => ⟨S1, .i32⟩
  | .hbm, ⟨17, _⟩ => ⟨S_, .i32⟩
  | .hbm, ⟨18, _⟩ => ⟨S512x256x1, .i32⟩
  | .hbm, ⟨19, _⟩ => ⟨S512x256x1, .i1⟩
  | .hbm, ⟨20, _⟩ => ⟨S1x1x1, .i32⟩
  | .hbm, ⟨21, _⟩ => ⟨S512x256x1, .i32⟩
  | .hbm, ⟨22, _⟩ => ⟨S512x256x1, .i1⟩
  | .hbm, ⟨23, _⟩ => ⟨S512x256x1, .i1⟩
  | .hbm, ⟨24, _⟩ => ⟨S_, .i1⟩
  | .hbm, ⟨25, _⟩ => ⟨S512x256, .i1⟩
  | .hbm, ⟨26, _⟩ => ⟨S512x256x256, .f32⟩
  | .hbm, ⟨27, _⟩ => ⟨S512x256x256, .i1⟩
  | .hbm, ⟨28, _⟩ => ⟨S_, .f32⟩
  | .hbm, ⟨29, _⟩ => ⟨S512x256x256, .f32⟩
  | .hbm, ⟨30, _⟩ => ⟨S512x256x256, .f32⟩
  | .hbm, ⟨31, _⟩ => ⟨S512x256x512, .f32⟩
  | .hbm, ⟨32, _⟩ => ⟨S512x256x256, .f32⟩
  | .hbm, ⟨33, _⟩ => ⟨S1x1x256, .f32⟩
  | .hbm, ⟨34, _⟩ => ⟨S512x256x256, .f32⟩
  | .hbm, ⟨35, _⟩ => ⟨S512x256x256, .f32⟩
  | .hbm, ⟨36, _⟩ => ⟨S_, .f32⟩
  | .hbm, ⟨37, _⟩ => ⟨S512x256x256, .f32⟩
  | .hbm, ⟨38, _⟩ => ⟨S512x256x256, .f32⟩
  | .hbm, ⟨39, _⟩ => ⟨S512x256x50, .f32⟩
  | .hbm, ⟨40, _⟩ => ⟨S1x1x50, .f32⟩
  | .hbm, ⟨41, _⟩ => ⟨S512x256x50, .f32⟩
  | .hbm, ⟨42, _⟩ => ⟨S512x256x50, .f32⟩
  | _, _ => ⟨S512x257x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_1 : Ref sig .tc := ⟨.hbm, 16, rfl⟩
abbrev main_call0_c_2 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_c_3 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_cst : Ref sig .tc := ⟨.hbm, 28, rfl⟩
abbrev main_call0_v14 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_call1_cst : Ref sig .tc := ⟨.hbm, 36, rfl⟩
abbrev main_call1_v0 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩

abbrev nD : Nat := 1
abbrev τ : Topo := Topo.v7x

variable {F : FTy → Type} [FloatOps F]

class Facts₀ : Prop where
  slices_S512x257x256_S512x256x256_0_1_0 : S512x257x256.Slices ![0, 1, 0] S512x256x256
  bcast_S512x256_S512x256x1_0_1 : S512x256.BroadcastsInDim S512x256x1 (![0, 1] : Fin 2 → Fin S512x256x1.rank)
  bcast_S_S512x256x1 : S_.BroadcastsInDim S512x256x1 (![] : Fin 0 → Fin S512x256x1.rank)
  bcast_S1_S1x1x1_2 : S1.BroadcastsInDim S1x1x1 (![2] : Fin 1 → Fin S1x1x1.rank)
  bcast_S1x1x1_S512x256x1_0_1_2 : S1x1x1.BroadcastsInDim S512x256x1 (![0, 1, 2] : Fin 3 → Fin S512x256x1.rank)
  reducesTo_S512x256x1_S512x256_d2 : S512x256x1.ReducesTo [2] S512x256
  h_S_ : 0 < S_.numel
  bcast_S512x256_S512x256x256_0_1 : S512x256.BroadcastsInDim S512x256x256 (![0, 1] : Fin 2 → Fin S512x256x256.rank)
  bcast_S_S512x256x256 : S_.BroadcastsInDim S512x256x256 (![] : Fin 0 → Fin S512x256x256.rank)
  concatenates_S512x256x256_S512x256x256_S512x256x512_d2 : Shape.Concatenates [S512x256x256, S512x256x256] S512x256x512 2
  bcast_S256_S1x1x256_2 : S256.BroadcastsInDim S1x1x256 (![2] : Fin 1 → Fin S1x1x256.rank)
  bcast_S1x1x256_S512x256x256_0_1_2 : S1x1x256.BroadcastsInDim S512x256x256 (![0, 1, 2] : Fin 3 → Fin S512x256x256.rank)
  bcast_S50_S1x1x50_2 : S50.BroadcastsInDim S1x1x50 (![2] : Fin 1 → Fin S1x1x50.rank)
  bcast_S1x1x50_S512x256x50_0_1_2 : S1x1x50.BroadcastsInDim S512x256x50 (![0, 1, 2] : Fin 3 → Fin S512x256x50.rank)
  gather_S512x257x256_S512x256x1_S512x256x256_2_1_0_0_1_2_11256_wf : GatherDims.WF S512x257x256 S512x256x1 S512x256x256 [2] [1] [0] [1] [0] 2 ![1, 1, 256]
  dot_S512x256x512_S256x512_S512x256x256_2_1_01_0_n_n_wf : DotDims.WF S512x256x512 S256x512 S512x256x256 [2] [1] [0, 1] [0] [] []
  dot_S512x256x256_S50x256_S512x256x50_2_1_01_0_n_n_wf : DotDims.WF S512x256x256 S50x256 S512x256x50 [2] [1] [0, 1] [0] [] []

variable [Facts₀]

def gather_S512x257x256_S512x256x1_S512x256x256_2_1_0_0_1_2_11256 : GatherDims S512x257x256 S512x256x1 S512x256x256 where
  offsetDims := [2]
  collapsedSliceDims := [1]
  operandBatchingDims := [0]
  startIndicesBatchingDims := [0]
  startIndexMap := [1]
  indexVectorDim := 2
  sliceSizes := ![1, 1, 256]
  wf := gather_S512x257x256_S512x256x1_S512x256x256_2_1_0_0_1_2_11256_wf
def dot_S512x256x512_S256x512_S512x256x256_2_1_01_0_n_n : DotDims S512x256x512 S256x512 S512x256x256 where
  lhsContracting := [2]
  rhsContracting := [1]
  lhsNonContracting := [0, 1]
  rhsNonContracting := [0]
  lhsBatch := []
  rhsBatch := []
  wf := dot_S512x256x512_S256x512_S512x256x256_2_1_01_0_n_n_wf
def dot_S512x256x256_S50x256_S512x256x50_2_1_01_0_n_n : DotDims S512x256x256 S50x256 S512x256x50 where
  lhsContracting := [2]
  rhsContracting := [1]
  lhsNonContracting := [0, 1]
  rhsNonContracting := [0]
  lhsBatch := []
  rhsBatch := []
  wf := dot_S512x256x256_S50x256_S512x256x50_2_1_01_0_n_n_wf

class Facts : Prop extends Facts₀ where

variable [Facts]
-- ==== Proof.HeadsRange.lean ====
/-
  What the precondition says about the head indices: each lies in `[0, 257)`.
-/
import proofs.«429871_j69801808495253_2_alg».proof.Pre_finite_inputs
import Idealize.ShloMosaic.Lib.ReduceAll
import Idealize.ShloMosaic.Lib.StableHlo.Predicate
import Idealize.ShloMosaic.Lib.ValueIdx

noncomputable section

namespace Cert.HeadsRange

open Idealize.ShloMosaic Idealize.ShloMosaic.ValueIdx Cert.Pre_finite_inputs

variable {F : FTy → Type} [FloatOps F] [Cert.Pre_finite_inputs.Facts]

/-- The printed precondition's last two conjuncts are `jnp.all(heads >= 0)` and `jnp.all(heads < 257)` (signed):
    where the whole conjunction is true, every head index, read as a signed integer, lies in `[0, 257)`. -/
theorem heads_range (a0 : FVec F S512x257x256 .f32) (a1 : IVec S512x256 32) (a2 : FVec F S512x256 .f32) (a3 : FVec F S256x512 .f32)
    (a4 : FVec F S256 .f32) (a5 : FVec F S50x256 .f32) (a6 : FVec F S50 .f32)
    (h : Cert.Pre_finite_inputs.fn (F := F) a0 a1 a2 a3 a4 a5 a6 = fun _ => 1#1) (n : Fin 512) (l : Fin 256) :
    0 ≤ (a1 (ix2 n l)).toInt ∧ (a1 (ix2 n l)).toInt < 257 := by
  -- Read the scalar conjunction at its one index and keep its last two conjuncts.
  have h0 := congrFun h ValueIdx.ix0
  dsimp only [fn, fn_part1, fn_part2] at h0
  obtain ⟨h1, hlt⟩ := IntOp.andi_eq_one.1 h0
  obtain ⟨-, hge⟩ := IntOp.andi_eq_one.1 h1
  haveI : Subsingleton S_.Idx := ⟨fun a b => funext fun d => d.elim0⟩
  -- Each `jnp.all` that is true is true at every index, here at `(n, l)`.
  have ege := Host.reduce_andi_all _ _ _ _ _ hge (ix2 n l)
  have elt := Host.reduce_andi_all _ _ _ _ _ hlt (ix2 n l)
  -- A signed comparison with a broadcast scalar constant, read at the index.
  have cge : IntOp.cmpi .sge (a1 (ix2 n l)) 0#32 = 1#1 := by
    rw [← ege]
    show _ = IntOp.cmpi .sge (a1 (ix2 n l)) (broadcastInDim S512x256 ![] _ (constantI S_ 32 0#32) (ix2 n l))
    rw [StableHlo.Predicate.bcast_scalar _ Facts.h_S_]; rfl
  have clt : IntOp.cmpi .slt (a1 (ix2 n l)) 257#32 = 1#1 := by
    rw [← elt]
    show _ = IntOp.cmpi .slt (a1 (ix2 n l)) (broadcastInDim S512x256 ![] _ (constantI S_ 32 257#32) (ix2 n l))
    rw [StableHlo.Predicate.bcast_scalar _ Facts.h_S_]; rfl
  rw [IntOp.cmpi_sge] at cge
  rw [IntOp.cmpi_slt] at clt
  exact ⟨by simpa using cge, by simpa using clt⟩

end Cert.HeadsRange

end
-- ==== Proof.Spec.lean ====
/-
  The function both programs compute, over the extended reals.

  A sentence `n` has 257 feature rows of width 256 (row 0 is the root). Token `l` (0 ≤ l < 256) is scored
  from two rows: its own, row `l + 1`, and the row its head index names, `heads[n, l] ∈ [0, 257)`. The two rows
  side by side (512 numbers) go through a linear layer `W1` (256 × 512) with bias `b1`, a rectifier, and a
  second linear layer `W2` (50 × 256) with bias `b2`. Because the first layer is linear, the product with the
  joined row is the sum of two products, one per half of `W1`'s columns: that is how `mlpOut` is written, and it
  is the only place where the two programs are arranged differently.
-/
import Idealize.ShloMosaic.PureOps.Ideal
import Idealize.ShloMosaic.Lib.ValueIdx

noncomputable section

namespace Cert.Spec

open Idealize.ShloMosaic Idealize.ShloMosaic.ValueIdx

/-- The feature row a head index names: the index itself when it lies in `[0, 257)` (outside that range the
    value is of no interest: it is clamped only to make the function total). -/
def headRow (h : BitVec 32) : Fin 257 := ⟨min h.toInt.toNat 256, by omega⟩

theorem headRow_val (h : BitVec 32) (h0 : 0 ≤ h.toInt) (h1 : h.toInt < 257) : (headRow h).val = h.toInt.toNat := by
  show min h.toInt.toNat 256 = _
  omega

/-- One token's 50 label scores from its own row `dep` and its head's row `head`: the first layer applied to
    the two rows by the two halves `w1d`, `w1h` of its weights (indexed input-first), the rectifier, the second
    layer `w2` (input-first) and its bias. -/
def mlpOut (dep head : Fin 256 → EReal) (w1d w1h : Fin 256 → Fin 256 → EReal) (b1 : Fin 256 → EReal)
    (w2 : Fin 256 → Fin 50 → EReal) (b2 : Fin 50 → EReal) (k : Fin 50) : EReal :=
  (∑ o : Fin 256, max ((∑ d : Fin 256, dep d * w1d d o) + (∑ d : Fin 256, head d * w1h d o) + b1 o) 0 * w2 o k) + b2 k

/-- The score of label `k` for token `l` of sentence `n`, from the whole argument arrays. -/
def Gat (feat : FVec Ideal ⟨3, ![512, 257, 256]⟩ .f32) (heads : IVec ⟨2, ![512, 256]⟩ 32)
    (W1 : FVec Ideal ⟨2, ![256, 512]⟩ .f32) (b1 : FVec Ideal ⟨1, ![256]⟩ .f32)
    (W2 : FVec Ideal ⟨2, ![50, 256]⟩ .f32) (b2 : FVec Ideal ⟨1, ![50]⟩ .f32)
    (n : Fin 512) (l : Fin 256) (k : Fin 50) : EReal :=
  mlpOut (fun d => feat (ix3 n (⟨l.val + 1, by omega⟩ : Fin 257) d))
    (fun d => feat (ix3 n (headRow (heads (ix2 n l))) d))
    (fun d o => W1 (ix2 o (⟨d.val, by omega⟩ : Fin 512)))
    (fun d o => W1 (ix2 o (⟨256 + d.val, by omega⟩ : Fin 512)))
    (fun o => b1 (ix1 o)) (fun o k => W2 (ix2 k o)) (fun k => b2 (ix1 k)) k

/-- The whole result array. -/
def G (feat : FVec Ideal ⟨3, ![512, 257, 256]⟩ .f32) (heads : IVec ⟨2, ![512, 256]⟩ 32)
    (W1 : FVec Ideal ⟨2, ![256, 512]⟩ .f32) (b1 : FVec Ideal ⟨1, ![256]⟩ .f32)
    (W2 : FVec Ideal ⟨2, ![50, 256]⟩ .f32) (b2 : FVec Ideal ⟨1, ![50]⟩ .f32) :
    FVec Ideal ⟨3, ![512, 256, 50]⟩ .f32 :=
  fun j => Gat feat heads W1 b1 W2 b2 (j 0) (j 1) (j 2)

theorem G_apply (feat : FVec Ideal ⟨3, ![512, 257, 256]⟩ .f32) (heads : IVec ⟨2, ![512, 256]⟩ 32)
    (W1 : FVec Ideal ⟨2, ![256, 512]⟩ .f32) (b1 : FVec Ideal ⟨1, ![256]⟩ .f32)
    (W2 : FVec Ideal ⟨2, ![50, 256]⟩ .f32) (b2 : FVec Ideal ⟨1, ![50]⟩ .f32)
    (n : Fin 512) (l : Fin 256) (k : Fin 50) :
    G feat heads W1 b1 W2 b2 (ix3 n l k) = Gat feat heads W1 b1 W2 b2 n l k := rfl

end Cert.Spec

end
-- ==== Proof.RefValue.lean ====
/-
  The reference's result, read at an index, is the specification.
-/
import proofs.«429871_j69801808495253_2_alg».proof.Proof.RefRead
import proofs.«429871_j69801808495253_2_alg».proof.Proof.Spec
import Idealize.ShloMosaic.Lib.ReduceAll
import Idealize.ShloMosaic.Lib.StableHlo.Predicate

noncomputable section

namespace Cert.RefValue

open Cert.ReferenceIdeal Cert.ReferenceIdeal.Gen Cert.ReferenceIdeal.Read
open Idealize.ShloMosaic Idealize.ShloMosaic.TcCoe Idealize.ShloMosaic.ValueIdx

/-! ## The head index as the gather reads it -/

/-- The broadcast index array at `(n, l, z)` is the head index of token `l` of sentence `n`. -/
theorem v1_at (x1 : (⟨S512x256, .i32⟩ : BufTy).Contents (Elt Ideal)) (n : Fin 512) (l : Fin 256) (z : Fin 1) :
    val_main_v1 (F := Ideal) x1 (ix3 n l z) = x1 (ix2 n l) := by
  rw [val_main_v1_apply]
  exact congrArg x1 (funext fun a => by match a with | ⟨0, _⟩ => rfl | ⟨1, _⟩ => rfl)

/-- A nonnegative head index is not wrapped: the "negative index" branch of the select is not taken. -/
theorem v4_at (x1 : (⟨S512x256, .i32⟩ : BufTy).Contents (Elt Ideal)) (n : Fin 512) (l : Fin 256) (z : Fin 1)
    (h0 : 0 ≤ (x1 (ix2 n l)).toInt) :
    val_main_call0_v4 (F := Ideal) x1 (ix3 n l z) = x1 (ix2 n l) := by
  rw [val_main_call0_v4_apply, val_main_call0_v1_apply, v1_at, val_main_call0_v0_apply, val_main_call0_c_apply]
  have hb : IntOp.cmpi .slt (x1 (ix2 n l)) 0#32 = 0#1 := by
    rcases BitVec.eq_zero_or_eq_one (IntOp.cmpi .slt (x1 (ix2 n l)) 0#32) with h | h
    · exact h
    · rw [IntOp.cmpi_slt, show (0#32 : BitVec 32).toInt = 0 from by decide] at h
      omega
  rw [hb, select_zero]

/-- Every element of the in-range test is true when the head indices lie in `[0, 257)`. -/
theorem v10_at (x1 : (⟨S512x256, .i32⟩ : BufTy).Contents (Elt Ideal))
    (hr : ∀ (n : Fin 512) (l : Fin 256), 0 ≤ (x1 (ix2 n l)).toInt ∧ (x1 (ix2 n l)).toInt < 257)
    (i : S512x256x1.Idx) : val_main_call0_v10 (F := Ideal) x1 i = 1#1 := by
  obtain ⟨n, l, z, rfl⟩ : ∃ (n : Fin 512) (l : Fin 256) (z : Fin 1), i = ix3 n l z := ⟨i 0, i 1, i 2, eq_ix3 i⟩
  rw [val_main_call0_v10_apply, val_main_call0_v6_apply, val_main_call0_v9_apply, v4_at x1 n l z (hr n l).1,
    val_main_call0_v5_apply, val_main_call0_c_2_apply, val_main_call0_v8_apply, val_main_call0_v7_apply,
    val_main_call0_c_1_apply]
  rw [IntOp.andi_eq_one, IntOp.cmpi_sge, IntOp.cmpi_sle, show (0#32 : BitVec 32).toInt = 0 from by decide,
    show (256#32 : BitVec 32).toInt = 256 from by decide]
  have := (hr n l).2
  exact ⟨(hr n l).1, by omega⟩

/-- A left fold by `and` from 1 over words that are all 1 is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self, show IntOp.andi (1#1 : BitVec 1) 1#1 = 1#1 from by decide]
    exact foldl_andi_one f l (fun n hn => h n (List.mem_cons_of_mem _ hn))

/-- The in-range bit of every token is set. -/
theorem v11_at (x1 : (⟨S512x256, .i32⟩ : BufTy).Contents (Elt Ideal))
    (hr : ∀ (n : Fin 512) (l : Fin 256), 0 ≤ (x1 (ix2 n l)).toInt ∧ (x1 (ix2 n l)).toInt < 257)
    (j : S512x256.Idx) : val_main_call0_v11 (F := Ideal) x1 j = 1#1 := by
  unfold val_main_call0_v11
  rw [Host.reduce_eq_foldl]
  exact foldl_andi_one _ _ (fun i _ => v10_at x1 hr i)

/-! ## The gather at an index -/

/-- The operand index the gather reads for result index `(n, l, d)`: sentence `n` (the batching axis), the row the
    start index names, read signed and clamped into `[0, 256]` (the collapsed axis), and column `d` (the offset axis). -/
theorem gather_idx (idx : IVec S512x256x1 32) (n : Fin 512) (l : Fin 256) (d : Fin 256) :
    gather_S512x257x256_S512x256x1_S512x256x256_2_1_0_0_1_2_11256.operandIdx (ix3 n l d) idx
      = ix3 n (⟨min (idx (ix3 n l (0 : Fin 1))).toInt.toNat 256, by omega⟩ : Fin 257) d := by
  funext a
  apply Fin.ext
  match a with
  | ⟨0, _⟩ =>
    show gather_S512x257x256_S512x256x1_S512x256x256_2_1_0_0_1_2_11256.start (ix3 n l d) idx 0
      + gather_S512x257x256_S512x256x1_S512x256x256_2_1_0_0_1_2_11256.batchCoord (ix3 n l d) 0
      + gather_S512x257x256_S512x256x1_S512x256x256_2_1_0_0_1_2_11256.offCoord (ix3 n l d) 0 = n.val
    rw [GatherDims.start_batching _ _ _ _ (by decide), GatherDims.offCoord_eq_zero _ _ _ (by decide)]
    show 0 + _ + 0 = n.val
    rw [Nat.zero_add, Nat.add_zero]
    rfl
  | ⟨1, _⟩ =>
    show gather_S512x257x256_S512x256x1_S512x256x256_2_1_0_0_1_2_11256.start (ix3 n l d) idx 1
      + gather_S512x257x256_S512x256x1_S512x256x256_2_1_0_0_1_2_11256.batchCoord (ix3 n l d) 1
      + gather_S512x257x256_S512x256x1_S512x256x256_2_1_0_0_1_2_11256.offCoord (ix3 n l d) 1
      = min (idx (ix3 n l (0 : Fin 1))).toInt.toNat 256
    rw [GatherDims.batchCoord_eq_zero _ _ _ (by decide), GatherDims.offCoord_eq_zero _ _ _ (by decide)]
    show _ + 0 + 0 = _
    unfold GatherDims.start
    rw [dif_pos (show (1 : Fin 3) ∈ gather_S512x257x256_S512x256x1_S512x256x256_2_1_0_0_1_2_11256.startIndexMap by decide)]
    have hsi : gather_S512x257x256_S512x256x1_S512x256x256_2_1_0_0_1_2_11256.siIdx (ix3 n l d)
        ⟨List.idxOf (1 : Fin 3) gather_S512x257x256_S512x256x1_S512x256x256_2_1_0_0_1_2_11256.startIndexMap,
          List.idxOf_lt_length_iff.2 (by decide)⟩ = ix3 n l (0 : Fin 1) := by
      funext b; refine Fin.ext ?_
      match b with
      | ⟨0, _⟩ => rfl
      | ⟨1, _⟩ => rfl
      | ⟨2, _⟩ => rfl
    rw [hsi]
    rfl
  | ⟨2, _⟩ =>
    show gather_S512x257x256_S512x256x1_S512x256x256_2_1_0_0_1_2_11256.start (ix3 n l d) idx 2
      + gather_S512x257x256_S512x256x1_S512x256x256_2_1_0_0_1_2_11256.batchCoord (ix3 n l d) 2
      + gather_S512x257x256_S512x256x1_S512x256x256_2_1_0_0_1_2_11256.offCoord (ix3 n l d) 2 = d.val
    rw [GatherDims.batchCoord_eq_zero _ _ _ (by decide)]
    unfold GatherDims.start
    rw [dif_neg (show ¬ (2 : Fin 3) ∈ gather_S512x257x256_S512x256x1_S512x256x256_2_1_0_0_1_2_11256.startIndexMap by decide)]
    show 0 + 0 + _ = d.val
    rw [Nat.add_zero, Nat.zero_add]
    rfl

/-- The gathered row: with the head index in range, `take_along_axis` reads the feature row the head index names. -/
theorem v2_at (x0 : (⟨S512x257x256, .f32⟩ : BufTy).Contents (Elt Ideal)) (x1 : (⟨S512x256, .i32⟩ : BufTy).Contents (Elt Ideal))
    (hr : ∀ (n : Fin 512) (l : Fin 256), 0 ≤ (x1 (ix2 n l)).toInt ∧ (x1 (ix2 n l)).toInt < 257)
    (n : Fin 512) (l : Fin 256) (d : Fin 256) :
    val_main_v2 (F := Ideal) x0 x1 (ix3 n l d) = x0 (ix3 n (Cert.Spec.headRow (x1 (ix2 n l))) d) := by
  rw [val_main_v2_apply, val_main_call0_v13_apply, v11_at x1 hr, select_one]
  show x0 (gather_S512x257x256_S512x256x1_S512x256x256_2_1_0_0_1_2_11256.operandIdx (ix3 n l d)
    (val_main_call0_v4 (F := Ideal) x1)) = _
  rw [gather_idx]
  refine congrArg x0 ?_
  funext a
  match a with
  | ⟨0, _⟩ => rfl
  | ⟨1, _⟩ =>
    apply Fin.ext
    show min (val_main_call0_v4 (F := Ideal) x1 (ix3 n l (0 : Fin 1))).toInt.toNat 256 = min (x1 (ix2 n l)).toInt.toNat 256
    rw [v4_at x1 n l 0 (hr n l).1]
  | ⟨2, _⟩ => rfl

/-! ## The joined row -/

/-- The left half of the joined row of token `l` is its own feature row, row `l + 1`. -/
theorem v3_left (x0 : (⟨S512x257x256, .f32⟩ : BufTy).Contents (Elt Ideal)) (x1 : (⟨S512x256, .i32⟩ : BufTy).Contents (Elt Ideal))
    (n : Fin 512) (l : Fin 256) (d : Fin 256) :
    val_main_v3 (F := Ideal) x0 x1 (ix3 n l (Fin.castAdd 256 d : Fin 512))
      = x0 (ix3 n (⟨l.val + 1, by omega⟩ : Fin 257) d) := by
  unfold val_main_v3
  rw [concatenate_pair_apply_left (2 : Fin 3) (val_main_v0 (F := Ideal) x0) (val_main_v2 (F := Ideal) x0 x1)
    concatenates_S512x256x256_S512x256x256_S512x256x512_d2 (ix3 n l (Fin.castAdd 256 d : Fin 512)) rfl (ix3 n l d)
    (fun b => by match b with | ⟨0, _⟩ => rfl | ⟨1, _⟩ => rfl | ⟨2, _⟩ => rfl)]
  rw [val_main_v0_apply]
  refine congrArg x0 (funext fun a => Fin.ext ?_)
  match a with
  | ⟨0, _⟩ => rfl
  | ⟨1, _⟩ => exact Nat.add_comm 1 l.val
  | ⟨2, _⟩ => rfl

/-- The right half of the joined row of token `l` is the feature row its head index names. -/
theorem v3_right (x0 : (⟨S512x257x256, .f32⟩ : BufTy).Contents (Elt Ideal)) (x1 : (⟨S512x256, .i32⟩ : BufTy).Contents (Elt Ideal))
    (hr : ∀ (n : Fin 512) (l : Fin 256), 0 ≤ (x1 (ix2 n l)).toInt ∧ (x1 (ix2 n l)).toInt < 257)
    (n : Fin 512) (l : Fin 256) (d : Fin 256) :
    val_main_v3 (F := Ideal) x0 x1 (ix3 n l (Fin.natAdd 256 d : Fin 512))
      = x0 (ix3 n (Cert.Spec.headRow (x1 (ix2 n l))) d) := by
  unfold val_main_v3
  refine (concatenate_pair_apply_right (t := S512x256x512) (s₁ := S512x256x256) (s₂ := S512x256x256) (2 : Fin 3)
    (val_main_v0 (F := Ideal) x0) (val_main_v2 (F := Ideal) x0 x1)
    concatenates_S512x256x256_S512x256x256_S512x256x512_d2 (ix3 n l (Fin.natAdd 256 d : Fin 512)) rfl rfl (ix3 n l d)
    ?_ ?_).trans (v2_at x0 x1 hr n l d)
  · intro b hb
    match b with
    | ⟨0, _⟩ => rfl
    | ⟨1, _⟩ => rfl
    | ⟨2, _⟩ => exact absurd rfl hb
  · exact Nat.add_comm d.val 256

/-! ## The two layers -/

/-- A sum over 512 is the sum over its first 256 terms plus the sum over its last 256. -/
theorem sum_split (f : Fin 512 → EReal) :
    ∑ k : Fin 512, f k = (∑ d : Fin 256, f (Fin.castAdd 256 d)) + ∑ d : Fin 256, f (Fin.natAdd 256 d) :=
  Fin.sum_univ_add (a := 256) (b := 256) f

/-- The hidden layer at `(n, l, o)`: the product of the joined row with row `o` of the first layer's weights, split
    at the join, plus the bias, rectified. -/
theorem v8_at (x0 : (⟨S512x257x256, .f32⟩ : BufTy).Contents (Elt Ideal)) (x1 : (⟨S512x256, .i32⟩ : BufTy).Contents (Elt Ideal))
    (x3 : (⟨S256x512, .f32⟩ : BufTy).Contents (Elt Ideal)) (x4 : (⟨S256, .f32⟩ : BufTy).Contents (Elt Ideal))
    (hr : ∀ (n : Fin 512) (l : Fin 256), 0 ≤ (x1 (ix2 n l)).toInt ∧ (x1 (ix2 n l)).toInt < 257)
    (n : Fin 512) (l : Fin 256) (o : Fin 256) :
    val_main_v8 (F := Ideal) x0 x1 x3 x4 (ix3 n l o)
      = max ((∑ d : Fin 256, x0 (ix3 n (⟨l.val + 1, by omega⟩ : Fin 257) d) * x3 (ix2 o (⟨d.val, by omega⟩ : Fin 512)))
          + (∑ d : Fin 256, x0 (ix3 n (Cert.Spec.headRow (x1 (ix2 n l))) d) * x3 (ix2 o (⟨256 + d.val, by omega⟩ : Fin 512)))
          + x4 (ix1 o)) 0 := by
  have hz : (FloatOps.ofBits .f32 0x00000000#32 : Ideal .f32) = 0 := Ideal.ofBits_zero_f32
  have h1 : ∀ d : Fin 256, val_main_v3 (F := Ideal) x0 x1 (lidx_main_v4 (ix3 n l o) (Fin.castAdd 256 d : Fin 512))
      * x3 (ridx_main_v4 (ix3 n l o) (Fin.castAdd 256 d : Fin 512))
      = x0 (ix3 n (⟨l.val + 1, by omega⟩ : Fin 257) d) * x3 (ix2 o (⟨d.val, by omega⟩ : Fin 512)) := fun d => by
    rw [show lidx_main_v4 (ix3 n l o) (Fin.castAdd 256 d : Fin 512) = ix3 n l (Fin.castAdd 256 d : Fin 512) from
        funext fun a => by match a with | ⟨0, _⟩ => rfl | ⟨1, _⟩ => rfl | ⟨2, _⟩ => rfl,
      v3_left,
      show ridx_main_v4 (ix3 n l o) (Fin.castAdd 256 d : Fin 512) = ix2 o (⟨d.val, by omega⟩ : Fin 512) from
        funext fun a => by match a with | ⟨0, _⟩ => rfl | ⟨1, _⟩ => rfl]
  have h2 : ∀ d : Fin 256, val_main_v3 (F := Ideal) x0 x1 (lidx_main_v4 (ix3 n l o) (Fin.natAdd 256 d : Fin 512))
      * x3 (ridx_main_v4 (ix3 n l o) (Fin.natAdd 256 d : Fin 512))
      = x0 (ix3 n (Cert.Spec.headRow (x1 (ix2 n l))) d) * x3 (ix2 o (⟨256 + d.val, by omega⟩ : Fin 512)) := fun d => by
    rw [show lidx_main_v4 (ix3 n l o) (Fin.natAdd 256 d : Fin 512) = ix3 n l (Fin.natAdd 256 d : Fin 512) from
        funext fun a => by match a with | ⟨0, _⟩ => rfl | ⟨1, _⟩ => rfl | ⟨2, _⟩ => rfl,
      v3_right x0 x1 hr,
      show ridx_main_v4 (ix3 n l o) (Fin.natAdd 256 d : Fin 512) = ix2 o (⟨256 + d.val, by omega⟩ : Fin 512) from
        funext fun a => by match a with | ⟨0, _⟩ => rfl | ⟨1, _⟩ => rfl]
  have h4 : idx_main_v5 (idx_main_v6 (ix3 n l o)) = ix1 o := funext fun a => by match a with | ⟨0, _⟩ => rfl
  rw [val_main_v8_apply, val_main_v7_apply, val_main_v4_apply, val_main_v6_apply, val_main_v5_apply,
    val_main_call1_v0_apply, val_main_call1_cst_apply, hz, h4, sum_split,
    Finset.sum_congr rfl (fun d _ => h1 d), Finset.sum_congr rfl (fun d _ => h2 d)]
  rfl

/-- With every head index in `[0, 257)`, the reference's result array is the specification's. -/
theorem ref_eq (x0 : (⟨S512x257x256, .f32⟩ : BufTy).Contents (Elt Ideal)) (x1 : (⟨S512x256, .i32⟩ : BufTy).Contents (Elt Ideal))
    (x3 : (⟨S256x512, .f32⟩ : BufTy).Contents (Elt Ideal)) (x4 : (⟨S256, .f32⟩ : BufTy).Contents (Elt Ideal))
    (x5 : (⟨S50x256, .f32⟩ : BufTy).Contents (Elt Ideal)) (x6 : (⟨S50, .f32⟩ : BufTy).Contents (Elt Ideal))
    (hr : ∀ (n : Fin 512) (l : Fin 256), 0 ≤ (x1 (ix2 n l)).toInt ∧ (x1 (ix2 n l)).toInt < 257) :
    val_main_v12 (F := Ideal) x0 x1 x3 x4 x5 x6 = Cert.Spec.G x0 x1 x3 x4 x5 x6 := by
  funext j
  obtain ⟨n, l, k, rfl⟩ : ∃ (n : Fin 512) (l : Fin 256) (k : Fin 50), j = ix3 n l k := ⟨j 0, j 1, j 2, eq_ix3 j⟩
  have hs : ∀ o : Fin 256, val_main_v8 (F := Ideal) x0 x1 x3 x4 (lidx_main_v9 (ix3 n l k) o) * x5 (ridx_main_v9 (ix3 n l k) o)
      = val_main_v8 (F := Ideal) x0 x1 x3 x4 (ix3 n l o) * x5 (ix2 k o) := fun o => by
    rw [show lidx_main_v9 (ix3 n l k) o = ix3 n l o from
        funext fun a => by match a with | ⟨0, _⟩ => rfl | ⟨1, _⟩ => rfl | ⟨2, _⟩ => rfl,
      show ridx_main_v9 (ix3 n l k) o = ix2 k o from funext fun a => by match a with | ⟨0, _⟩ => rfl | ⟨1, _⟩ => rfl]
  have h6 : idx_main_v10 (idx_main_v11 (ix3 n l k)) = ix1 k := funext fun a => by match a with | ⟨0, _⟩ => rfl
  rw [Cert.Spec.G_apply, val_main_v12_apply, val_main_v9_apply, val_main_v11_apply, val_main_v10_apply, h6,
    Finset.sum_congr rfl (fun o _ => hs o), Finset.sum_congr rfl (fun o _ => congrArg (· * x5 (ix2 k o)) (v8_at x0 x1 x3 x4 hr n l o))]
  rfl

end Cert.RefValue

end
-- ==== Proof.RunPieces.lean ====
/-
  What the kernel body leaves in the output block, read off the run's record of its stores.

  The body's loop makes two trips; trip `k` loads sentences `8k … 8k+7` of the feature block and of the
  head-index block, computes the body's arithmetic on them, and stores the result at sentences `8k … 8k+7` of the
  output block. So the output block holds, at every index, one function `G` of the block index as soon as each
  trip's result is `G` read at that trip's rows.
-/
import proofs.«429871_j69801808495253_2_alg».proof.Proof.Gen.KernelIdeal.Frame
import Idealize.ShloMosaic.Lib.Pipeline.Value

set_option maxRecDepth 16384

noncomputable section

namespace Cert.RunPieces

open Cert.KernelIdeal Cert.KernelIdeal.Gen
open Idealize.ShloMosaic Idealize.ShloMosaic.TcCoe Idealize.ShloMosaic.Tactic
open Idealize.SL Idealize.SL.Sem

variable {F : FTy → Type} [FloatOps F]

theorem trips_eq : k0_t1_loop.trips = 2 := by decide

/-- The rows trip `k` loads from the feature block, -/
abbrev featRect (k : Fin k0_t1_loop.trips) : Rect S16x257x256 :=
  Rect.unit (s := S16x257x256) (k0_off1 k) S8x257x256.size (k0_off1_inb k)
/-- from the head-index block, -/
abbrev headRect (k : Fin k0_t1_loop.trips) : Rect S16x256 :=
  Rect.unit (s := S16x256) (k0_off2 k) S8x256.size (k0_off2_inb k)
/-- and the rows it stores into the output block. -/
abbrev outRect (k : Fin k0_t1_loop.trips) : Rect S16x256x50 :=
  Rect.unit (s := S16x256x50) (k0_off3 k) S8x256x50.size (k0_off3_inb k)

/-- One trip stores once: at its rows, the body's arithmetic of what it loaded. -/
theorem tripL_eq (𝒱 : Variants) (c : Dev nD) (bd : Option 𝒱.V) (i : grid0.Coords) (arg1 : Memref sig .tc .vmem S16x257x256 .f32) (harg1 : arg1.IsWhole) (arg2 : Memref sig .tc .vmem S16x256 .i32) (harg2 : arg2.IsWhole) (arg3 : Memref sig .tc .vmem S256x256 .bf16) (harg3 : arg3.IsWhole) (arg4 : Memref sig .tc .vmem S256x256 .bf16) (harg4 : arg4.IsWhole) (arg5 : Memref sig .tc .vmem S256 .f32) (harg5 : arg5.IsWhole) (arg6 : Memref sig .tc .vmem S256x50 .bf16) (harg6 : arg6.IsWhole) (arg7 : Memref sig .tc .vmem S50 .f32) (harg7 : arg7.IsWhole) (arg8 : Memref sig .tc .vmem S16x256x50 .f32) (harg8 : arg8.IsWhole) (v0 : Vec F S256x256 .bf16) (v2 : Vec F S256x256 .bf16) (v4 : Vec F S256 .f32) (v5 : Vec F S256x50 .bf16) (v7 : Vec F S50 .f32) (X_arg1 : BufTy.Contents (Elt F) arg1.view.ty) (X_arg2 : BufTy.Contents (Elt F) arg2.view.ty) (k : Fin k0_t1_loop.trips) :
    tripL_k0_t1 (F := F) 𝒱 c bd i arg1 harg1 arg2 harg2 arg3 harg3 arg4 harg4 arg5 harg5 arg6 harg6 arg7 harg7 arg8 harg8 v0 v2 v4 v5 v7 X_arg1 X_arg2 k
      = [(⟨outRect k, k0_pay4 (k0_pay1 v0) (k0_pay2 v2) v4 (k0_pay3 v5) v7
            (View.readAt (Elt F) arg1.view (featRect k).toLoadRect X_arg1)
            (View.readAt (Elt F) arg2.view (headRect k).toLoadRect X_arg2)⟩ : View.Piece (Elt F) S16x256x50 .f32)] := by
  unfold tripL_k0_t1 trip_k0_t1
  dsimp only
  sl_unfold_run_names
  rfl

theorem hz2 : (![0, 0] : Fin 2 → Nat) = fun _ => 0 := funext fun a => by fin_cases a <;> rfl
theorem hz1 : (![0] : Fin 1 → Nat) = fun _ => 0 := funext fun a => by fin_cases a <;> rfl

/-- The two trips' stores, the later first. -/
theorem pb_two (𝒱 : Variants) (c : Dev nD) (bd : Option 𝒱.V) (i : grid0.Coords) (arg1 : Memref sig .tc .vmem S16x257x256 .f32) (harg1 : arg1.IsWhole) (arg2 : Memref sig .tc .vmem S16x256 .i32) (harg2 : arg2.IsWhole) (arg3 : Memref sig .tc .vmem S256x256 .bf16) (harg3 : arg3.IsWhole) (arg4 : Memref sig .tc .vmem S256x256 .bf16) (harg4 : arg4.IsWhole) (arg5 : Memref sig .tc .vmem S256 .f32) (harg5 : arg5.IsWhole) (arg6 : Memref sig .tc .vmem S256x50 .bf16) (harg6 : arg6.IsWhole) (arg7 : Memref sig .tc .vmem S50 .f32) (harg7 : arg7.IsWhole) (arg8 : Memref sig .tc .vmem S16x256x50 .f32) (harg8 : arg8.IsWhole) (v0 : Vec F S256x256 .bf16) (v2 : Vec F S256x256 .bf16) (v4 : Vec F S256 .f32) (v5 : Vec F S256x50 .bf16) (v7 : Vec F S50 .f32) (X_arg1 : BufTy.Contents (Elt F) arg1.view.ty) (X_arg2 : BufTy.Contents (Elt F) arg2.view.ty) :
    pb_k0_t1 (F := F) 𝒱 c bd i arg1 harg1 arg2 harg2 arg3 harg3 arg4 harg4 arg5 harg5 arg6 harg6 arg7 harg7 arg8 harg8 v0 v2 v4 v5 v7 X_arg1 X_arg2 2
      = tripL_k0_t1 (F := F) 𝒱 c bd i arg1 harg1 arg2 harg2 arg3 harg3 arg4 harg4 arg5 harg5 arg6 harg6 arg7 harg7 arg8 harg8 v0 v2 v4 v5 v7 X_arg1 X_arg2 (⟨1, by decide⟩ : Fin k0_t1_loop.trips)
        ++ (tripL_k0_t1 (F := F) 𝒱 c bd i arg1 harg1 arg2 harg2 arg3 harg3 arg4 harg4 arg5 harg5 arg6 harg6 arg7 harg7 arg8 harg8 v0 v2 v4 v5 v7 X_arg1 X_arg2 (⟨0, by decide⟩ : Fin k0_t1_loop.trips) ++ []) :=
  (pb_k0_t1_succ (F := F) 𝒱 c bd i arg1 harg1 arg2 harg2 arg3 harg3 arg4 harg4 arg5 harg5 arg6 harg6 arg7 harg7 arg8 harg8 v0 v2 v4 v5 v7 X_arg1 X_arg2 (⟨1, by decide⟩ : Fin k0_t1_loop.trips)).trans
    (congrArg _ ((pb_k0_t1_succ (F := F) 𝒱 c bd i arg1 harg1 arg2 harg2 arg3 harg3 arg4 harg4 arg5 harg5 arg6 harg6 arg7 harg7 arg8 harg8 v0 v2 v4 v5 v7 X_arg1 X_arg2 (⟨0, by decide⟩ : Fin k0_t1_loop.trips)).trans
      (congrArg _ (pb_k0_t1.eq_1 (F := F) 𝒱 c bd i arg1 harg1 arg2 harg2 arg3 harg3 arg4 harg4 arg5 harg5 arg6 harg6 arg7 harg7 arg8 harg8 v0 v2 v4 v5 v7 X_arg1 X_arg2))))

/-- Every store the run records is some trip's: at that trip's rows, the body's arithmetic of the weight blocks and
    of that trip's rows of the feature and head-index blocks. -/
theorem mem_run (c : Dev nD) (i : grid0.Coords) (arg1 : Memref sig .tc .vmem S16x257x256 .f32) (harg1 : arg1.IsWhole) (arg2 : Memref sig .tc .vmem S16x256 .i32) (harg2 : arg2.IsWhole) (arg3 : Memref sig .tc .vmem S256x256 .bf16) (harg3 : arg3.IsWhole) (arg4 : Memref sig .tc .vmem S256x256 .bf16) (harg4 : arg4.IsWhole) (arg5 : Memref sig .tc .vmem S256 .f32) (harg5 : arg5.IsWhole) (arg6 : Memref sig .tc .vmem S256x50 .bf16) (harg6 : arg6.IsWhole) (arg7 : Memref sig .tc .vmem S50 .f32) (harg7 : arg7.IsWhole) (arg8 : Memref sig .tc .vmem S16x256x50 .f32) (harg8 : arg8.IsWhole)
    (x0 : Vec F S16x257x256 .f32) (x1 : Vec F S16x256 .i32) (x2 : Vec F S256x256 .bf16) (x3 : Vec F S256x256 .bf16) (x4 : Vec F S256 .f32) (x5 : Vec F S256x50 .bf16) (x6 : Vec F S50 .f32)
    (p : View.Piece (Elt F) S16x256x50 .f32) (hp : p ∈ (kernelRun0_A c i arg1 harg1 arg2 harg2 arg3 harg3 arg4 harg4 arg5 harg5 arg6 harg6 arg7 harg7 arg8 harg8 x0 x1 x2 x3 x4 x5 x6).1) :
    ∃ k : Fin k0_t1_loop.trips, p = ⟨outRect k, k0_pay4 (k0_pay1 x2) (k0_pay2 x3) x4 (k0_pay3 x5) x6
        (View.ld x0 (featRect k)) (View.ld x1 (headRect k))⟩ := by
  unfold kernelRun0_A at hp
  dsimp only at hp
  have htr : Scf.trips (0#32) (Scalar.addi 0#32 2#32) 1#32 = 2 := by decide
  rw [htr, pb_two, tripL_eq, tripL_eq] at hp
  simp only [View.readAt_eq_ld, harg1.read_unread, harg2.read_unread, harg3.read_unread, harg4.read_unread,
    harg5.read_unread, harg6.read_unread, harg7.read_unread, View.ld_unit_zero (S := S256x256) hz2,
    View.ld_unit_zero (S := S256x50) hz2, View.ld_unit_zero (S := S256) hz1, View.ld_unit_zero (S := S50) hz1] at hp
  simp only [List.mem_append, List.mem_singleton, List.not_mem_nil, or_false] at hp
  rcases hp with rfl | rfl
  · exact ⟨⟨1, by decide⟩, rfl⟩
  · exact ⟨⟨0, by decide⟩, rfl⟩

/-- THE OUTPUT BLOCK after the body: one function `G` of the block index, as soon as each trip's result is `G` at
    that trip's rows. -/
theorem out_eq (c : Dev nD) (i : grid0.Coords) (arg1 : Memref sig .tc .vmem S16x257x256 .f32) (harg1 : arg1.IsWhole) (arg2 : Memref sig .tc .vmem S16x256 .i32) (harg2 : arg2.IsWhole) (arg3 : Memref sig .tc .vmem S256x256 .bf16) (harg3 : arg3.IsWhole) (arg4 : Memref sig .tc .vmem S256x256 .bf16) (harg4 : arg4.IsWhole) (arg5 : Memref sig .tc .vmem S256 .f32) (harg5 : arg5.IsWhole) (arg6 : Memref sig .tc .vmem S256x50 .bf16) (harg6 : arg6.IsWhole) (arg7 : Memref sig .tc .vmem S50 .f32) (harg7 : arg7.IsWhole) (arg8 : Memref sig .tc .vmem S16x256x50 .f32) (harg8 : arg8.IsWhole)
    (x0 : Vec F S16x257x256 .f32) (x1 : Vec F S16x256 .i32) (x2 : Vec F S256x256 .bf16) (x3 : Vec F S256x256 .bf16) (x4 : Vec F S256 .f32) (x5 : Vec F S256x50 .bf16) (x6 : Vec F S50 .f32)
    (G : S16x256x50.Idx → Elt F .f32)
    (hG : ∀ (k : Fin k0_t1_loop.trips) (x : S8x256x50.Idx),
      k0_pay4 (k0_pay1 x2) (k0_pay2 x3) x4 (k0_pay3 x5) x6 (View.ld x0 (featRect k)) (View.ld x1 (headRect k)) x
        = G ((outRect k).emb x)) :
    out0_A_7 c i arg1 harg1 arg2 harg2 arg3 harg3 arg4 harg4 arg5 harg5 arg6 harg6 arg7 harg7 arg8 harg8 x0 x1 x2 x3 x4 x5 x6 = G := by
  funext y
  unfold out0_A_7
  refine View.read_writes_apply_of_pieces _ _ G _ ?_ y (cover0_A_7 c i arg1 harg1 arg2 harg2 arg3 harg3 arg4 harg4 arg5 harg5 arg6 harg6 arg7 harg7 arg8 harg8 x0 x1 x2 x3 x4 x5 x6 y)
  intro p hp x
  obtain ⟨k, rfl⟩ := mem_run c i arg1 harg1 arg2 harg2 arg3 harg3 arg4 harg4 arg5 harg5 arg6 harg6 arg7 harg7 arg8 harg8 x0 x1 x2 x3 x4 x5 x6 p hp
  exact hG k x

end Cert.RunPieces

end
-- ==== Proof.Payload.lean ====
/-
  The kernel body's arithmetic on one 8-sentence sub-block, read at an index, is the specification's per-token function.

  The body never indexes by a head: it multiplies a one-hot matrix (entry `(p, l, L)` is `1` where `L` is the head of
  token `l`) into rows `0 … 255` and adds a flag times row `256`. With the heads in `[0, 257)` exactly one of the 257
  tests fires, so the sum is the head's row (`0 * x = 0`, `1 * x = x`, `x + 0 = x` at every extended real: no
  finiteness is needed). The rest is layout: rows flattened `(p, l) ↦ 256 * p + l`, three contractions over one axis read as
  sums over `Fin 256`, biases broadcast along the rows, and the result un-flattened.
-/
import proofs.«429871_j69801808495253_2_alg».proof.Proof.Gen.KernelIdeal.Skeleton
import proofs.«429871_j69801808495253_2_alg».proof.Proof.Spec
import Idealize.ShloMosaic.Lib.Pipeline.Value
import Idealize.ShloMosaic.Lib.ValueLayout
import Idealize.ShloMosaic.PureOps.Ideal.Laws

noncomputable section

namespace Cert.Payload

open Cert.KernelIdeal Cert.KernelIdeal.Gen
open Idealize.ShloMosaic Idealize.ShloMosaic.TcCoe Idealize.ShloMosaic.ValueIdx

/-! ## The three contractions at an index: a sum over the contracted axis' coordinate -/

theorem mmA_lhs0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
theorem mmA_lhs1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
theorem mmA_rhs0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
theorem mmA_rhs1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

theorem mmA_apply {φ₁ φ₂ : FTy} (X : FVec Ideal S2048x256 φ₁) (W : FVec Ideal S256x256 φ₂) (r : Fin 2048) (o : Fin 256) :
    matmul dot_S2048x256_S256x256_S2048x256_1_0_0_1_n_n none X W (constant (F := Ideal) S2048x256 .f32 0x00000000#32) (ix2 r o)
      = ∑ d : Fin 256, X (ix2 r d) * W (ix2 d o) := by
  simp only [matmul]
  rw [Ideal.matmul_constant_zero_apply, ← Equiv.sum_comp (ValueIdx.contrEquiv1 dot_S2048x256_S256x256_S2048x256_1_0_0_1_n_n 256 rfl rfl).symm]
  refine Finset.sum_congr rfl fun k _ => ?_
  have hk := ValueIdx.contrEquiv1_symm_val dot_S2048x256_S256x256_S2048x256_1_0_0_1_n_n 256 rfl rfl k
  have el : dot_S2048x256_S256x256_S2048x256_1_0_0_1_n_n.lhsIdx (ix2 r o) ((ValueIdx.contrEquiv1 dot_S2048x256_S256x256_S2048x256_1_0_0_1_n_n 256 rfl rfl).symm k) = ix2 r k := funext fun a => Fin.ext (by
    match a with
    | ⟨0, _⟩ => exact mmA_lhs0 _ _
    | ⟨1, _⟩ => exact (mmA_lhs1 _ _).trans hk)
  have er : dot_S2048x256_S256x256_S2048x256_1_0_0_1_n_n.rhsIdx (ix2 r o) ((ValueIdx.contrEquiv1 dot_S2048x256_S256x256_S2048x256_1_0_0_1_n_n 256 rfl rfl).symm k) = ix2 k o := funext fun a => Fin.ext (by
    match a with
    | ⟨0, _⟩ => exact (mmA_rhs0 _ _).trans hk
    | ⟨1, _⟩ => exact mmA_rhs1 _ _)
  rw [el, er]

theorem mmB_lhs0 (i : S2048x50.Idx) (q : dot_S2048x256_S256x50_S2048x50_1_0_0_1_n_n.contr.Idx) :
    (dot_S2048x256_S256x50_S2048x50_1_0_0_1_n_n.lhsIdx i q 0).val = (i 0).val := by
  unfold DotDims.lhsIdx
  rw [dif_neg (show ¬(0 : Fin S2048x256.rank) ∈ dot_S2048x256_S256x50_S2048x50_1_0_0_1_n_n.lhsBatch by decide), dif_pos (show (0 : Fin S2048x256.rank) ∈ dot_S2048x256_S256x50_S2048x50_1_0_0_1_n_n.lhsNonContracting by decide)]
  rfl
theorem mmB_lhs1 (i : S2048x50.Idx) (q : dot_S2048x256_S256x50_S2048x50_1_0_0_1_n_n.contr.Idx) :
    (dot_S2048x256_S256x50_S2048x50_1_0_0_1_n_n.lhsIdx i q 1).val = (q ⟨0, by decide⟩).val :=
  dot_S2048x256_S256x50_S2048x50_1_0_0_1_n_n.lhsIdx_val_of_single rfl i q
theorem mmB_rhs0 (i : S2048x50.Idx) (q : dot_S2048x256_S256x50_S2048x50_1_0_0_1_n_n.contr.Idx) :
    (dot_S2048x256_S256x50_S2048x50_1_0_0_1_n_n.rhsIdx i q 0).val = (q ⟨0, by decide⟩).val :=
  dot_S2048x256_S256x50_S2048x50_1_0_0_1_n_n.rhsIdx_val_of_single rfl i q
theorem mmB_rhs1 (i : S2048x50.Idx) (q : dot_S2048x256_S256x50_S2048x50_1_0_0_1_n_n.contr.Idx) :
    (dot_S2048x256_S256x50_S2048x50_1_0_0_1_n_n.rhsIdx i q 1).val = (i 1).val := by
  unfold DotDims.rhsIdx
  rw [dif_neg (show ¬(1 : Fin S256x50.rank) ∈ dot_S2048x256_S256x50_S2048x50_1_0_0_1_n_n.rhsBatch by decide), dif_pos (show (1 : Fin S256x50.rank) ∈ dot_S2048x256_S256x50_S2048x50_1_0_0_1_n_n.rhsNonContracting by decide)]
  rfl

theorem mmB_apply {φ₁ φ₂ : FTy} (X : FVec Ideal S2048x256 φ₁) (W : FVec Ideal S256x50 φ₂) (r : Fin 2048) (o : Fin 50) :
    matmul dot_S2048x256_S256x50_S2048x50_1_0_0_1_n_n none X W (constant (F := Ideal) S2048x50 .f32 0x00000000#32) (ix2 r o)
      = ∑ d : Fin 256, X (ix2 r d) * W (ix2 d o) := by
  simp only [matmul]
  rw [Ideal.matmul_constant_zero_apply, ← Equiv.sum_comp (ValueIdx.contrEquiv1 dot_S2048x256_S256x50_S2048x50_1_0_0_1_n_n 256 rfl rfl).symm]
  refine Finset.sum_congr rfl fun k _ => ?_
  have hk := ValueIdx.contrEquiv1_symm_val dot_S2048x256_S256x50_S2048x50_1_0_0_1_n_n 256 rfl rfl k
  have el : dot_S2048x256_S256x50_S2048x50_1_0_0_1_n_n.lhsIdx (ix2 r o) ((ValueIdx.contrEquiv1 dot_S2048x256_S256x50_S2048x50_1_0_0_1_n_n 256 rfl rfl).symm k) = ix2 r k := funext fun a => Fin.ext (by
    match a with
    | ⟨0, _⟩ => exact mmB_lhs0 _ _
    | ⟨1, _⟩ => exact (mmB_lhs1 _ _).trans hk)
  have er : dot_S2048x256_S256x50_S2048x50_1_0_0_1_n_n.rhsIdx (ix2 r o) ((ValueIdx.contrEquiv1 dot_S2048x256_S256x50_S2048x50_1_0_0_1_n_n 256 rfl rfl).symm k) = ix2 k o := funext fun a => Fin.ext (by
    match a with
    | ⟨0, _⟩ => exact (mmB_rhs0 _ _).trans hk
    | ⟨1, _⟩ => exact mmB_rhs1 _ _)
  rw [el, er]

theorem bmm_lhs0 (i : S8x256x256.Idx) (q : dot_S8x256x256_S8x256x256_S8x256x256_2_1_1_2_0_0.contr.Idx) :
    (dot_S8x256x256_S8x256x256_S8x256x256_2_1_1_2_0_0.lhsIdx i q 0).val = (i 0).val := by
  unfold DotDims.lhsIdx
  rw [dif_pos (show (0 : Fin S8x256x256.rank) ∈ dot_S8x256x256_S8x256x256_S8x256x256_2_1_1_2_0_0.lhsBatch by decide)]
  rfl
theorem bmm_lhs1 (i : S8x256x256.Idx) (q : dot_S8x256x256_S8x256x256_S8x256x256_2_1_1_2_0_0.contr.Idx) :
    (dot_S8x256x256_S8x256x256_S8x256x256_2_1_1_2_0_0.lhsIdx i q 1).val = (i 1).val := by
  unfold DotDims.lhsIdx
  rw [dif_neg (show ¬(1 : Fin S8x256x256.rank) ∈ dot_S8x256x256_S8x256x256_S8x256x256_2_1_1_2_0_0.lhsBatch by decide), dif_pos (show (1 : Fin S8x256x256.rank) ∈ dot_S8x256x256_S8x256x256_S8x256x256_2_1_1_2_0_0.lhsNonContracting by decide)]
  rfl
theorem bmm_lhs2 (i : S8x256x256.Idx) (q : dot_S8x256x256_S8x256x256_S8x256x256_2_1_1_2_0_0.contr.Idx) :
    (dot_S8x256x256_S8x256x256_S8x256x256_2_1_1_2_0_0.lhsIdx i q 2).val = (q ⟨0, by decide⟩).val :=
  dot_S8x256x256_S8x256x256_S8x256x256_2_1_1_2_0_0.lhsIdx_val_of_single rfl i q
theorem bmm_rhs0 (i : S8x256x256.Idx) (q : dot_S8x256x256_S8x256x256_S8x256x256_2_1_1_2_0_0.contr.Idx) :
    (dot_S8x256x256_S8x256x256_S8x256x256_2_1_1_2_0_0.rhsIdx i q 0).val = (i 0).val := by
  unfold DotDims.rhsIdx
  rw [dif_pos (show (0 : Fin S8x256x256.rank) ∈ dot_S8x256x256_S8x256x256_S8x256x256_2_1_1_2_0_0.rhsBatch by decide)]
  rfl
theorem bmm_rhs1 (i : S8x256x256.Idx) (q : dot_S8x256x256_S8x256x256_S8x256x256_2_1_1_2_0_0.contr.Idx) :
    (dot_S8x256x256_S8x256x256_S8x256x256_2_1_1_2_0_0.rhsIdx i q 1).val = (q ⟨0, by decide⟩).val :=
  dot_S8x256x256_S8x256x256_S8x256x256_2_1_1_2_0_0.rhsIdx_val_of_single rfl i q
theorem bmm_rhs2 (i : S8x256x256.Idx) (q : dot_S8x256x256_S8x256x256_S8x256x256_2_1_1_2_0_0.contr.Idx) :
    (dot_S8x256x256_S8x256x256_S8x256x256_2_1_1_2_0_0.rhsIdx i q 2).val = (i 2).val := by
  unfold DotDims.rhsIdx
  rw [dif_neg (show ¬(2 : Fin S8x256x256.rank) ∈ dot_S8x256x256_S8x256x256_S8x256x256_2_1_1_2_0_0.rhsBatch by decide), dif_pos (show (2 : Fin S8x256x256.rank) ∈ dot_S8x256x256_S8x256x256_S8x256x256_2_1_1_2_0_0.rhsNonContracting by decide)]
  rfl

theorem bmm_apply {φ₁ φ₂ : FTy} (A : FVec Ideal S8x256x256 φ₁) (B : FVec Ideal S8x256x256 φ₂) (p : Fin 8) (l d : Fin 256) :
    matmul dot_S8x256x256_S8x256x256_S8x256x256_2_1_1_2_0_0 none A B (constant (F := Ideal) S8x256x256 .f32 0x00000000#32) (ix3 p l d)
      = ∑ L : Fin 256, A (ix3 p l L) * B (ix3 p L d) := by
  simp only [matmul]
  rw [Ideal.matmul_constant_zero_apply, ← Equiv.sum_comp (ValueIdx.contrEquiv1 dot_S8x256x256_S8x256x256_S8x256x256_2_1_1_2_0_0 256 rfl rfl).symm]
  refine Finset.sum_congr rfl fun k _ => ?_
  have hk := ValueIdx.contrEquiv1_symm_val dot_S8x256x256_S8x256x256_S8x256x256_2_1_1_2_0_0 256 rfl rfl k
  have el : dot_S8x256x256_S8x256x256_S8x256x256_2_1_1_2_0_0.lhsIdx (ix3 p l d) ((ValueIdx.contrEquiv1 dot_S8x256x256_S8x256x256_S8x256x256_2_1_1_2_0_0 256 rfl rfl).symm k) = ix3 p l k := funext fun a => Fin.ext (by
    match a with
    | ⟨0, _⟩ => exact bmm_lhs0 _ _
    | ⟨1, _⟩ => exact bmm_lhs1 _ _
    | ⟨2, _⟩ => exact (bmm_lhs2 _ _).trans hk)
  have er : dot_S8x256x256_S8x256x256_S8x256x256_2_1_1_2_0_0.rhsIdx (ix3 p l d) ((ValueIdx.contrEquiv1 dot_S8x256x256_S8x256x256_S8x256x256_2_1_1_2_0_0 256 rfl rfl).symm k) = ix3 p k d := funext fun a => Fin.ext (by
    match a with
    | ⟨0, _⟩ => exact bmm_rhs0 _ _
    | ⟨1, _⟩ => exact (bmm_rhs1 _ _).trans hk
    | ⟨2, _⟩ => exact bmm_rhs2 _ _)
  rw [el, er]

/-! ## Layout operations at explicit coordinates -/

theorem flat_apply {α : Type} (X : S8x256x256.Idx → α) (p : Fin 8) (l d : Fin 256) :
    shapeCast S2048x256 X shapeCasts_S8x256x256_S2048x256 (ix2 (⟨256 * p.val + l.val, by omega⟩ : Fin 2048) d) = X (ix3 p l d) := by
  refine shapeCast_apply X _ _ (ix3 p l d) ?_
  rw [Shape.rowMajor_val_three, Shape.rowMajor_val_two]
  show (p.val * 256 + l.val) * 256 + d.val = (256 * p.val + l.val) * 256 + d.val
  omega

theorem unflat_apply {α : Type} (Y : S2048x50.Idx → α) (p : Fin 8) (l : Fin 256) (k : Fin 50) :
    shapeCast S8x256x50 Y shapeCasts_S2048x50_S8x256x50 (ix3 p l k) = Y (ix2 (⟨256 * p.val + l.val, by omega⟩ : Fin 2048) k) := by
  refine shapeCast_apply Y _ _ (ix2 (⟨256 * p.val + l.val, by omega⟩ : Fin 2048) k) ?_
  rw [Shape.rowMajor_val_three, Shape.rowMajor_val_two]
  show (256 * p.val + l.val) * 50 + k.val = (p.val * 256 + l.val) * 50 + k.val
  omega

theorem biasA_apply {α : Type} (b : S256.Idx → α) (r : Fin 2048) (o : Fin 256) :
    broadcastTo S2048x256 (shapeCast S1x256 b shapeCasts_S256_S1x256) broadcasts_S1x256_S2048x256 (ix2 r o) = b (ix1 o) := by
  refine (broadcastTo_apply _ _ (ix2 r o) (ix2 (0 : Fin 1) o) (fun a => match a with
    | ⟨0, _⟩ => by show (0 : Nat) = if (1 : Nat) = 1 then 0 else _; rw [if_pos rfl]
    | ⟨1, _⟩ => by show o.val = if (256 : Nat) = 1 then 0 else o.val; rw [if_neg (by decide)])).trans ?_
  refine shapeCast_apply b _ _ (ix1 o) ?_
  rw [Shape.rowMajor_val_one, Shape.rowMajor_val_two]
  show o.val = 0 * 256 + o.val
  omega

theorem biasB_apply {α : Type} (b : S50.Idx → α) (r : Fin 2048) (k : Fin 50) :
    broadcastTo S2048x50 (shapeCast S1x50 b shapeCasts_S50_S1x50) broadcasts_S1x50_S2048x50 (ix2 r k) = b (ix1 k) := by
  refine (broadcastTo_apply _ _ (ix2 r k) (ix2 (0 : Fin 1) k) (fun a => match a with
    | ⟨0, _⟩ => by show (0 : Nat) = if (1 : Nat) = 1 then 0 else _; rw [if_pos rfl]
    | ⟨1, _⟩ => by show k.val = if (50 : Nat) = 1 then 0 else k.val; rw [if_neg (by decide)])).trans ?_
  refine shapeCast_apply b _ _ (ix1 k) ?_
  rw [Shape.rowMajor_val_one, Shape.rowMajor_val_two]
  show k.val = 0 * 50 + k.val
  omega

/-- The slice that drops the root row: row `l + 1`. -/
theorem dep_apply {α : Type} (X : S8x257x256.Idx → α) (p : Fin 8) (l d : Fin 256) :
    extractStridedSlice S8x256x256 ![0, 1, 0] X slices_S8x257x256_o0_1_0_S8x256x256 (ix3 p l d)
      = X (ix3 p (⟨l.val + 1, by omega⟩ : Fin 257) d) := by
  refine extractStridedSlice_apply _ X _ (ix3 p l d) _ (fun a => match a with
    | ⟨0, _⟩ => by show p.val = 0 + p.val; omega
    | ⟨1, _⟩ => by show l.val + 1 = 1 + l.val; omega
    | ⟨2, _⟩ => by show d.val = 0 + d.val; omega)

/-- The slice of rows `0 … 255`. -/
theorem low_apply {α : Type} (X : S8x257x256.Idx → α) (p : Fin 8) (L d : Fin 256) :
    extractStridedSlice S8x256x256 ![0, 0, 0] X slices_S8x257x256_o0_0_0_S8x256x256 (ix3 p L d)
      = X (ix3 p (⟨L.val, by omega⟩ : Fin 257) d) := by
  refine extractStridedSlice_apply _ X _ (ix3 p L d) _ (fun a => match a with
    | ⟨0, _⟩ => by show p.val = 0 + p.val; omega
    | ⟨1, _⟩ => by show L.val = 0 + L.val; omega
    | ⟨2, _⟩ => by show d.val = 0 + d.val; omega)

/-- The last row, broadcast along the token axis. -/
theorem last_apply {α : Type} (X : S8x257x256.Idx → α) (p : Fin 8) (l d : Fin 256) :
    broadcastTo S8x256x256 (extractStridedSlice S8x1x256 ![0, 256, 0] X slices_S8x257x256_o0_256_0_S8x1x256) broadcasts_S8x1x256_S8x256x256 (ix3 p l d)
      = X (ix3 p (⟨256, by omega⟩ : Fin 257) d) := by
  refine (broadcastTo_apply _ _ (ix3 p l d) (ix3 p (0 : Fin 1) d) (fun a => match a with
    | ⟨0, _⟩ => by show p.val = if (8 : Nat) = 1 then 0 else p.val; rw [if_neg (by decide)]
    | ⟨1, _⟩ => by show (0 : Nat) = if (1 : Nat) = 1 then 0 else _; rw [if_pos rfl]
    | ⟨2, _⟩ => by show d.val = if (256 : Nat) = 1 then 0 else d.val; rw [if_neg (by decide)])).trans ?_
  refine extractStridedSlice_apply _ X _ (ix3 p (0 : Fin 1) d) _ (fun a => match a with
    | ⟨0, _⟩ => by show p.val = 0 + p.val; omega
    | ⟨1, _⟩ => by show (256 : Nat) = 256 + 0; omega
    | ⟨2, _⟩ => by show d.val = 0 + d.val; omega)

/-- A per-token value broadcast along the feature axis. -/
theorem tok_apply {α : Type} (x : S8x256.Idx → α) (p : Fin 8) (l d : Fin 256) :
    broadcastTo S8x256x256 (shapeCast S8x256x1 x shapeCasts_S8x256_S8x256x1) broadcasts_S8x256x1_S8x256x256 (ix3 p l d) = x (ix2 p l) := by
  refine (broadcastTo_apply _ _ (ix3 p l d) (ix3 p l (0 : Fin 1)) (fun a => match a with
    | ⟨0, _⟩ => by show p.val = if (8 : Nat) = 1 then 0 else p.val; rw [if_neg (by decide)]
    | ⟨1, _⟩ => by show l.val = if (256 : Nat) = 1 then 0 else l.val; rw [if_neg (by decide)]
    | ⟨2, _⟩ => by show (0 : Nat) = if (1 : Nat) = 1 then 0 else _; rw [if_pos rfl])).trans ?_
  refine shapeCast_apply x _ _ (ix2 p l) ?_
  rw [Shape.rowMajor_val_two, Shape.rowMajor_val_three]
  show p.val * 256 + l.val = (p.val * 256 + l.val) * 1 + 0
  omega

/-! ## Words: a tested equality as an extended real, and a small word named by its signed value -/

/-- A one-bit word, widened and read as a signed integer, is the extended real `1` or `0`. -/
theorem bit_toEReal (b : BitVec 1) :
    (FloatOps.sitofp (F := Ideal) .f32 (b.setWidth 32) : EReal) = if b = 1#1 then 1 else 0 := by
  rcases BitVec.eq_zero_or_eq_one b with h | h
  · subst h
    rw [if_neg (by decide)]
    show (((BitVec.setWidth 32 (0#1 : BitVec 1)).toInt : ℝ) : EReal) = 0
    rw [show (BitVec.setWidth 32 (0#1 : BitVec 1)).toInt = 0 by decide]
    simp
  · subst h
    rw [if_pos rfl]
    show (((BitVec.setWidth 32 (1#1 : BitVec 1)).toInt : ℝ) : EReal) = 1
    rw [show (BitVec.setWidth 32 (1#1 : BitVec 1)).toInt = 1 by decide]
    simp

/-- A word whose signed value lies in `[0, 257)` is the word of a natural number below `257` exactly when that number is its signed value. -/
theorem ofNat_eq_iff (h : BitVec 32) (h0 : 0 ≤ h.toInt) (h1 : h.toInt < 257) (L : Nat) (hL : L < 257) :
    BitVec.ofNat 32 L = h ↔ L = h.toInt.toNat := by
  have hs : (BitVec.ofNat 32 L).toInt = (L : Int) := by
    rw [BitVec.toInt_eq_toNat_of_lt (by simp; omega)]; simp; omega
  constructor
  · intro e
    rw [← e, hs]
    omega
  · intro e
    apply BitVec.eq_of_toInt_eq
    rw [hs]
    omega

/-! ## The one-hot matrix and the last-row flag -/

/-- The equality test of two words is the one-bit `1` exactly when they are equal. -/
theorem cmpi_eq_one_iff {w : Nat} (a b : BitVec w) : IntOp.cmpi .eq a b = 1#1 ↔ a = b := by
  show BitVec.ofBool (a == b) = 1#1 ↔ a = b
  rw [← beq_iff_eq (a := a) (b := b)]
  generalize (a == b) = c
  cases c <;> decide

/-- A tested equality as an extended real: `1` where it holds, `0` where it fails. -/
theorem flag_toEReal {w : Nat} (a b : BitVec w) :
    (FloatOps.sitofp (F := Ideal) .f32 ((IntOp.cmpi .eq a b).setWidth 32) : EReal) = if a = b then 1 else 0 := by
  rw [bit_toEReal]
  by_cases e : a = b
  · rw [if_pos e, if_pos ((cmpi_eq_one_iff a b).2 e)]
  · rw [if_neg e, if_neg (fun h => e ((cmpi_eq_one_iff a b).1 h))]

/-- The one-hot matrix: entry `(p, l, L)` tests whether `L` is the head index of token `l` of sentence `p`. -/
def onehot (v14 : IVec S8x256 32) : FVec Ideal S8x256x256 .bf16 :=
  truncf .bf16 (sitofp .f32 (extui 32 (cmpi .eq (iota .tc S8x256x256 32 [2] iota_S8x256x256_d2_w32)
    (broadcastTo S8x256x256 (shapeCast S8x256x1 v14 shapeCasts_S8x256_S8x256x1) broadcasts_S8x256x1_S8x256x256)) natLt_1_32)) bitsLt_bf16_f32

theorem onehot_apply (v14 : IVec S8x256 32) (p : Fin 8) (l L : Fin 256) :
    onehot v14 (ix3 p l L) = if BitVec.ofNat 32 L.val = v14 (ix2 p l) then 1 else 0 := by
  show (FloatOps.sitofp (F := Ideal) .f32 ((IntOp.cmpi .eq (iota .tc S8x256x256 32 [2] iota_S8x256x256_d2_w32 (ix3 p l L))
        (broadcastTo S8x256x256 (shapeCast S8x256x1 v14 shapeCasts_S8x256_S8x256x1) broadcasts_S8x256x1_S8x256x256 (ix3 p l L))).setWidth 32) : EReal) = _
  rw [flag_toEReal, iota_single_apply, tok_apply]

/-- The flag of the last row: whether the head index is `256`. -/
def lastflag (v14 : IVec S8x256 32) : FVec Ideal S8x256x256 .f32 :=
  broadcastTo S8x256x256 (shapeCast S8x256x1 (sitofp (F := Ideal) .f32 (extui 32 (cmpi .eq v14 (broadcast S8x256 256#32)) natLt_1_32)) shapeCasts_S8x256_S8x256x1) broadcasts_S8x256x1_S8x256x256

theorem lastflag_apply (v14 : IVec S8x256 32) (p : Fin 8) (l d : Fin 256) :
    lastflag v14 (ix3 p l d) = if v14 (ix2 p l) = 256#32 then 1 else 0 := by
  unfold lastflag
  rw [tok_apply]
  exact flag_toEReal _ _

/-! ## The gathered head row -/

/-- A sum against an indicator that fires at exactly one place is the summand there (`0 * x = 0` and `1 * x = x` hold at every extended real). -/
theorem sum_indicator_one (c : Fin 256 → Prop) [DecidablePred c] (f : Fin 256 → EReal) (a : Fin 256) (hc : ∀ L, c L ↔ L = a) :
    ∑ L : Fin 256, (if c L then (1 : EReal) else 0) * f L = f a := by
  rw [Finset.sum_eq_single a]
  · rw [if_pos ((hc a).2 rfl), one_mul]
  · intro b _ hb; rw [if_neg (fun h => hb ((hc b).1 h)), zero_mul]
  · intro h; exact absurd (Finset.mem_univ a) h

/-- A sum against an indicator that fires nowhere is zero. -/
theorem sum_indicator_none (c : Fin 256 → Prop) [DecidablePred c] (f : Fin 256 → EReal) (hc : ∀ L, ¬ c L) :
    ∑ L : Fin 256, (if c L then (1 : EReal) else 0) * f L = 0 :=
  Finset.sum_eq_zero fun L _ => by rw [if_neg (hc L), zero_mul]

/-- The head row gathered without indexing: the one-hot matrix times rows `0 … 255`, plus the last-row flag times row `256`. -/
def gathered (v12 : FVec Ideal S8x257x256 .f32) (v14 : IVec S8x256 32) : FVec Ideal S8x256x256 .f32 :=
  addf (matmul dot_S8x256x256_S8x256x256_S8x256x256_2_1_1_2_0_0 none (onehot v14)
      (extractStridedSlice S8x256x256 ![0, 0, 0] (truncf .bf16 v12 bitsLt_bf16_f32 : FVec Ideal S8x257x256 .bf16) slices_S8x257x256_o0_0_0_S8x256x256)
      (constant S8x256x256 .f32 0x00000000#32))
    (mulf (lastflag v14)
      (broadcastTo S8x256x256 (extf .f32 (extractStridedSlice S8x1x256 ![0, 256, 0] (truncf .bf16 v12 bitsLt_bf16_f32 : FVec Ideal S8x257x256 .bf16) slices_S8x257x256_o0_256_0_S8x1x256) bitsLt_bf16_f32 : FVec Ideal S8x1x256 .f32) broadcasts_S8x1x256_S8x256x256))

theorem gathered_apply (v12 : FVec Ideal S8x257x256 .f32) (v14 : IVec S8x256 32) (p : Fin 8) (l d : Fin 256)
    (h0 : 0 ≤ (v14 (ix2 p l)).toInt) (h1 : (v14 (ix2 p l)).toInt < 257) :
    gathered v12 v14 (ix3 p l d) = v12 (ix3 p (Cert.Spec.headRow (v14 (ix2 p l))) d) := by
  have hlast : (broadcastTo S8x256x256 (extf .f32 (extractStridedSlice S8x1x256 ![0, 256, 0] (truncf .bf16 v12 bitsLt_bf16_f32 : FVec Ideal S8x257x256 .bf16) slices_S8x257x256_o0_256_0_S8x1x256) bitsLt_bf16_f32 : FVec Ideal S8x1x256 .f32) broadcasts_S8x1x256_S8x256x256) (ix3 p l d)
      = v12 (ix3 p (⟨256, by omega⟩ : Fin 257) d) := last_apply (α := EReal) v12 p l d
  have hterm : ∀ L : Fin 256, onehot v14 (ix3 p l L)
        * (extractStridedSlice S8x256x256 ![0, 0, 0] (truncf .bf16 v12 bitsLt_bf16_f32 : FVec Ideal S8x257x256 .bf16) slices_S8x257x256_o0_0_0_S8x256x256) (ix3 p L d)
      = (if BitVec.ofNat 32 L.val = v14 (ix2 p l) then (1 : EReal) else 0) * v12 (ix3 p (⟨L.val, by omega⟩ : Fin 257) d) := fun L => by
    rw [onehot_apply]
    exact congrArg _ (low_apply (α := EReal) v12 p L d)
  show matmul dot_S8x256x256_S8x256x256_S8x256x256_2_1_1_2_0_0 none (onehot v14) _ (constant S8x256x256 .f32 0x00000000#32) (ix3 p l d) + lastflag v14 (ix3 p l d) * _ = _
  rw [bmm_apply, lastflag_apply, hlast, Finset.sum_congr rfl (fun L _ => hterm L)]
  have hv := Cert.Spec.headRow_val (v14 (ix2 p l)) h0 h1
  by_cases hn : (v14 (ix2 p l)).toInt.toNat < 256
  · -- the head is one of rows 0 … 255
    have hc : ∀ L : Fin 256, BitVec.ofNat 32 L.val = v14 (ix2 p l) ↔ L = ⟨(v14 (ix2 p l)).toInt.toNat, hn⟩ := fun L =>
      (ofNat_eq_iff _ h0 h1 L.val (by omega)).trans ⟨fun e => Fin.ext e, fun e => congrArg Fin.val e⟩
    rw [sum_indicator_one _ (fun L => v12 (ix3 p (⟨L.val, by omega⟩ : Fin 257) d)) _ hc,
      if_neg (fun e => by have := (ofNat_eq_iff _ h0 h1 256 (by omega)).1 e.symm; omega), zero_mul, add_zero]
    exact congrArg (fun r => v12 (ix3 p r d)) (Fin.ext hv.symm)
  · -- the head is row 256
    have h256 : (v14 (ix2 p l)).toInt.toNat = 256 := by omega
    rw [sum_indicator_none _ _ (fun L e => by have := (ofNat_eq_iff _ h0 h1 L.val (by omega)).1 e; omega),
      if_pos ((ofNat_eq_iff _ h0 h1 256 (by omega)).2 h256.symm).symm, one_mul, zero_add]
    exact congrArg (fun r => v12 (ix3 p r d)) (Fin.ext (hv.trans h256).symm)

/-! ## The first layer -/

/-- The first layer on the flattened rows: the two products against the halves of the weights, the bias, the rectifier. -/
def hidden (v1 v3 : FVec Ideal S256x256 .bf16) (v4 : FVec Ideal S256 .f32) (v12 : FVec Ideal S8x257x256 .f32) (v14 : IVec S8x256 32) :
    FVec Ideal S2048x256 .f32 :=
  maximumf
    (addf
      (addf
        (matmul dot_S2048x256_S256x256_S2048x256_1_0_0_1_n_n none
          (shapeCast S2048x256 (extractStridedSlice S8x256x256 ![0, 1, 0] (truncf .bf16 v12 bitsLt_bf16_f32 : FVec Ideal S8x257x256 .bf16) slices_S8x257x256_o0_1_0_S8x256x256) shapeCasts_S8x256x256_S2048x256)
          v1 (constant S2048x256 .f32 0x00000000#32))
        (matmul dot_S2048x256_S256x256_S2048x256_1_0_0_1_n_n none
          (shapeCast S2048x256 (truncf .bf16 (gathered v12 v14) bitsLt_bf16_f32 : FVec Ideal S8x256x256 .bf16) shapeCasts_S8x256x256_S2048x256)
          v3 (constant S2048x256 .f32 0x00000000#32)))
      (broadcastTo S2048x256 (shapeCast S1x256 v4 shapeCasts_S256_S1x256) broadcasts_S1x256_S2048x256))
    (broadcast S2048x256 (Scalar.ofBits .f32 0x00000000#32))

theorem hidden_apply (v1 v3 : FVec Ideal S256x256 .bf16) (v4 : FVec Ideal S256 .f32) (v12 : FVec Ideal S8x257x256 .f32) (v14 : IVec S8x256 32)
    (p : Fin 8) (l o : Fin 256) (h0 : 0 ≤ (v14 (ix2 p l)).toInt) (h1 : (v14 (ix2 p l)).toInt < 257) :
    hidden v1 v3 v4 v12 v14 (ix2 (⟨256 * p.val + l.val, by omega⟩ : Fin 2048) o)
      = max ((∑ d : Fin 256, v12 (ix3 p (⟨l.val + 1, by omega⟩ : Fin 257) d) * v1 (ix2 d o))
          + (∑ d : Fin 256, v12 (ix3 p (Cert.Spec.headRow (v14 (ix2 p l))) d) * v3 (ix2 d o)) + v4 (ix1 o)) 0 := by
  have hd : ∀ d : Fin 256, shapeCast S2048x256 (extractStridedSlice S8x256x256 ![0, 1, 0] (truncf .bf16 v12 bitsLt_bf16_f32 : FVec Ideal S8x257x256 .bf16) slices_S8x257x256_o0_1_0_S8x256x256) shapeCasts_S8x256x256_S2048x256 (ix2 (⟨256 * p.val + l.val, by omega⟩ : Fin 2048) d)
      = v12 (ix3 p (⟨l.val + 1, by omega⟩ : Fin 257) d) := fun d =>
    (flat_apply _ p l d).trans (dep_apply (α := EReal) v12 p l d)
  have hh : ∀ d : Fin 256, shapeCast S2048x256 (truncf .bf16 (gathered v12 v14) bitsLt_bf16_f32 : FVec Ideal S8x256x256 .bf16) shapeCasts_S8x256x256_S2048x256 (ix2 (⟨256 * p.val + l.val, by omega⟩ : Fin 2048) d)
      = v12 (ix3 p (Cert.Spec.headRow (v14 (ix2 p l))) d) := fun d =>
    (flat_apply _ p l d).trans (gathered_apply v12 v14 p l d h0 h1)
  show max (matmul dot_S2048x256_S256x256_S2048x256_1_0_0_1_n_n none _ v1 (constant S2048x256 .f32 0x00000000#32) (ix2 (⟨256 * p.val + l.val, by omega⟩ : Fin 2048) o)
      + matmul dot_S2048x256_S256x256_S2048x256_1_0_0_1_n_n none _ v3 (constant S2048x256 .f32 0x00000000#32) (ix2 (⟨256 * p.val + l.val, by omega⟩ : Fin 2048) o)
      + broadcastTo S2048x256 (shapeCast S1x256 v4 shapeCasts_S256_S1x256) broadcasts_S1x256_S2048x256 (ix2 (⟨256 * p.val + l.val, by omega⟩ : Fin 2048) o))
      (Ideal.ofBits .f32 0x00000000#32) = _
  rw [mmA_apply, mmA_apply, biasA_apply, Ideal.ofBits_zero_f32,
    Finset.sum_congr rfl (fun d _ => congrArg (· * v1 (ix2 d o)) (hd d)),
    Finset.sum_congr rfl (fun d _ => congrArg (· * v3 (ix2 d o)) (hh d))]

/-! ## The body -/

/-- With the sub-block's head indices in `[0, 257)`, the body's result for sentence `p` of the sub-block, token `l`,
    label `k` is the specification's `mlpOut` of that sentence's rows `l + 1` and `heads[p, l]` and the weight blocks
    (already laid input-first). -/
theorem pay_apply (v1 v3 : FVec Ideal S256x256 .bf16) (v4 : Vec Ideal S256 .f32) (v6 : FVec Ideal S256x50 .bf16) (v7 : Vec Ideal S50 .f32)
    (v12 : Vec Ideal S8x257x256 .f32) (v14 : Vec Ideal S8x256 .i32)
    (hr : ∀ (p : Fin 8) (l : Fin 256), 0 ≤ (v14 (ix2 p l)).toInt ∧ (v14 (ix2 p l)).toInt < 257)
    (p : Fin 8) (l : Fin 256) (k : Fin 50) :
    k0_pay4 (F := Ideal) v1 v3 v4 v6 v7 v12 v14 (ix3 p l k)
      = Cert.Spec.mlpOut (fun d => v12 (ix3 p (⟨l.val + 1, by omega⟩ : Fin 257) d))
          (fun d => v12 (ix3 p (Cert.Spec.headRow (v14 (ix2 p l))) d))
          (fun d o => v1 (ix2 d o)) (fun d o => v3 (ix2 d o)) (fun o => v4 (ix1 o))
          (fun o k => v6 (ix2 o k)) (fun k => v7 (ix1 k)) k := by
  -- the body is: flatten, first layer, second layer against `v6`, bias, un-flatten
  have e : k0_pay4 (F := Ideal) v1 v3 v4 v6 v7 v12 v14
      = shapeCast S8x256x50
          (addf
            (matmul dot_S2048x256_S256x50_S2048x50_1_0_0_1_n_n none (truncf .bf16 (hidden v1 v3 v4 v12 v14) bitsLt_bf16_f32 : FVec Ideal S2048x256 .bf16) v6
              (constant S2048x50 .f32 0x00000000#32))
            (broadcastTo S2048x50 (shapeCast S1x50 v7 shapeCasts_S50_S1x50) broadcasts_S1x50_S2048x50))
          shapeCasts_S2048x50_S8x256x50 := rfl
  rw [e, unflat_apply]
  show matmul dot_S2048x256_S256x50_S2048x50_1_0_0_1_n_n none _ v6 (constant S2048x50 .f32 0x00000000#32) (ix2 (⟨256 * p.val + l.val, by omega⟩ : Fin 2048) k)
      + broadcastTo S2048x50 (shapeCast S1x50 v7 shapeCasts_S50_S1x50) broadcasts_S1x50_S2048x50 (ix2 (⟨256 * p.val + l.val, by omega⟩ : Fin 2048) k) = _
  rw [mmB_apply, biasB_apply]
  unfold Cert.Spec.mlpOut
  refine congrArg (· + v7 (ix1 k)) (Finset.sum_congr rfl fun o _ => ?_)
  exact congrArg (· * v6 (ix2 o k)) (hidden_apply v1 v3 v4 v12 v14 p l o (hr p l).1 (hr p l).2)

end Cert.Payload

end
-- ==== Proof.TripValue.lean ====
/-
  One trip of the body, in terms of the whole argument arrays.

  A grid point `q` (0 ≤ q < 32) works on sentences `16 q … 16 q + 15`; its trip `k` (0 or 1) on sentences
  `16 q + 8 k … 16 q + 8 k + 7`. When the point's blocks are the whole arrays read at those sentences (and the weight
  blocks are the transposed weights), the trip's result for its sentence `p`, token `l`, label `j` is the
  specification at sentence `16 q + 8 k + p`.
-/
import proofs.«429871_j69801808495253_2_alg».proof.Proof.RunPieces
import proofs.«429871_j69801808495253_2_alg».proof.Proof.Payload
import proofs.«429871_j69801808495253_2_alg».proof.Proof.Spec
import Idealize.ShloMosaic.Lib.Pipeline.Value

noncomputable section

namespace Cert.TripValue

open Cert.KernelIdeal Cert.KernelIdeal.Gen Cert.RunPieces
open Idealize.ShloMosaic Idealize.ShloMosaic.TcCoe Idealize.ShloMosaic.ValueIdx

theorem trip_lt (k : Fin k0_t1_loop.trips) : k.val < 2 := lt_of_lt_of_eq k.isLt trips_eq

/-- The feature rows trip `k` loads: sentence `p` of the trip is sentence `8 k + p` of the block. -/
theorem feat_idx (k : Fin k0_t1_loop.trips) (p : Fin 8) (r : Fin 257) (d : Fin 256) :
    (featRect k).idx (ix3 p r d) = ix3 (⟨8 * k.val + p.val, by have := trip_lt k; omega⟩ : Fin 16) r d := by
  funext a; apply Fin.ext
  have e := k0_off1_eq k
  match a with
  | ⟨0, _⟩ => show (k0_off1 k) 0 + 1 * p.val = 8 * k.val + p.val; rw [e]; show 8 * k.val + 1 * p.val = _; omega
  | ⟨1, _⟩ => show (k0_off1 k) 1 + 1 * r.val = r.val; rw [e]; show 0 + 1 * r.val = _; omega
  | ⟨2, _⟩ => show (k0_off1 k) 2 + 1 * d.val = d.val; rw [e]; show 0 + 1 * d.val = _; omega

/-- The head indices trip `k` loads. -/
theorem head_idx (k : Fin k0_t1_loop.trips) (p : Fin 8) (l : Fin 256) :
    (headRect k).idx (ix2 p l) = ix2 (⟨8 * k.val + p.val, by have := trip_lt k; omega⟩ : Fin 16) l := by
  funext a; apply Fin.ext
  have e := k0_off2_eq k
  match a with
  | ⟨0, _⟩ => show (k0_off2 k) 0 + 1 * p.val = 8 * k.val + p.val; rw [e]; show 8 * k.val + 1 * p.val = _; omega
  | ⟨1, _⟩ => show (k0_off2 k) 1 + 1 * l.val = l.val; rw [e]; show 0 + 1 * l.val = _; omega

/-- A cast to the same shape changes nothing: the weight blocks enter the arithmetic as loaded. -/
theorem pay1_eq (v : Vec Ideal S256x256 .bf16) : k0_pay1 (F := Ideal) v = v := shapeCast_self _ _
theorem pay2_eq (v : Vec Ideal S256x256 .bf16) : k0_pay2 (F := Ideal) v = v := shapeCast_self _ _
theorem pay3_eq (v : Vec Ideal S256x50 .bf16) : k0_pay3 (F := Ideal) v = v := shapeCast_self _ _

/-- ONE TRIP'S RESULT is the specification at the trip's sentences. -/
theorem trip_value
    (feat : FVec Ideal ⟨3, ![512, 257, 256]⟩ .f32) (heads : IVec ⟨2, ![512, 256]⟩ 32)
    (W1 : FVec Ideal ⟨2, ![256, 512]⟩ .f32) (b1 : FVec Ideal ⟨1, ![256]⟩ .f32)
    (W2 : FVec Ideal ⟨2, ![50, 256]⟩ .f32) (b2 : FVec Ideal ⟨1, ![50]⟩ .f32)
    (hr : ∀ (n : Fin 512) (l : Fin 256), 0 ≤ (heads (ix2 n l)).toInt ∧ (heads (ix2 n l)).toInt < 257)
    (x0 : Vec Ideal S16x257x256 .f32) (x1 : Vec Ideal S16x256 .i32) (x2 x3 : Vec Ideal S256x256 .bf16)
    (x4 : Vec Ideal S256 .f32) (x5 : Vec Ideal S256x50 .bf16) (x6 : Vec Ideal S50 .f32)
    (q : Fin 32)
    (h0 : ∀ (a : Fin 16) (r : Fin 257) (d : Fin 256),
      x0 (ix3 a r d) = feat (ix3 (⟨16 * q.val + a.val, by omega⟩ : Fin 512) r d))
    (h1 : ∀ (a : Fin 16) (l : Fin 256), x1 (ix2 a l) = heads (ix2 (⟨16 * q.val + a.val, by omega⟩ : Fin 512) l))
    (h2 : ∀ d o : Fin 256, x2 (ix2 d o) = W1 (ix2 o (⟨d.val, by omega⟩ : Fin 512)))
    (h3 : ∀ d o : Fin 256, x3 (ix2 d o) = W1 (ix2 o (⟨256 + d.val, by omega⟩ : Fin 512)))
    (h4 : ∀ o : Fin 256, x4 (ix1 o) = b1 (ix1 o))
    (h5 : ∀ (o : Fin 256) (j : Fin 50), x5 (ix2 o j) = W2 (ix2 j o))
    (h6 : ∀ j : Fin 50, x6 (ix1 j) = b2 (ix1 j))
    (k : Fin k0_t1_loop.trips) (p : Fin 8) (l : Fin 256) (j : Fin 50) :
    k0_pay4 (F := Ideal) (k0_pay1 x2) (k0_pay2 x3) x4 (k0_pay3 x5) x6 (View.ld x0 (featRect k)) (View.ld x1 (headRect k))
        (ix3 p l j)
      = Cert.Spec.Gat feat heads W1 b1 W2 b2
          (⟨16 * q.val + (8 * k.val + p.val), by have := trip_lt k; omega⟩ : Fin 512) l j := by
  have hk := trip_lt k
  have hr' : ∀ (p' : Fin 8) (l' : Fin 256), 0 ≤ (View.ld x1 (headRect k) (ix2 p' l')).toInt
      ∧ (View.ld x1 (headRect k) (ix2 p' l')).toInt < 257 := fun p' l' => by
    show 0 ≤ (x1 ((headRect k).idx (ix2 p' l'))).toInt ∧ (x1 ((headRect k).idx (ix2 p' l'))).toInt < 257
    rw [head_idx, h1]; exact hr _ _
  rw [Cert.Payload.pay_apply _ _ _ _ _ _ _ hr' p l j]
  unfold Cert.Spec.Gat
  simp only [View.ld, feat_idx, head_idx, pay1_eq, pay2_eq, pay3_eq, h0, h1, h2, h3, h4, h5, h6]

end Cert.TripValue

end
-- ==== Proof.HostPrefix.lean ====
/-
  The weight arrays the kernel's windows stage, as the host operations before the call leave them: the two halves
  of `W1`'s columns and `W2`, each transposed (a change of float format is the identity over the extended reals).
-/
import proofs.«429871_j69801808495253_2_alg».proof.Proof.Gen.KernelIdeal.Frame
import Idealize.ShloMosaic.Lib.Pipeline.Value
import Idealize.ShloMosaic.Lib.ValueIdx
import Idealize.ShloMosaic.Lib.StableHlo.Run

noncomputable section

namespace Cert.HostPrefix

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- Window 2's array: entry `(d, o)` is `W1[o, d]`. -/
theorem V_w1d (c : Dev nD) (d o : Fin 256) :
    (V m c main_v2 : S256x256.Idx → EReal) (ix2 d o)
      = (m ((c : Thread nD τ).loc main_arg3) : S256x512.Idx → EReal) (ix2 o (⟨d.val, by omega⟩ : Fin 512)) := by
  have e : @Eq (S256x256.Idx → EReal) (V m c main_v2)
      (truncf (F := Ideal) .bf16 (transpose S256x256 [1, 0] (extractStridedSlice S256x256 ![0, 0]
          (m ((c : Thread nD τ).loc main_arg3) : S256x512.Idx → EReal) slices_S256x512_S256x256_0_0)
          transposes_S256x256_S256x256_1_0) bitsLt_bf16_f32) := by
    dsimp only [Gen.V, Gen.hostOps0]
    after_results
  rw [e]
  -- the format change is the identity; the transpose swaps the coordinates; the slice starts at column 0
  refine (truncf_apply _ bitsLt_bf16_f32 (ix2 d o)).trans ?_
  refine (transpose_apply [1, 0] _ transposes_S256x256_S256x256_1_0 (ix2 d o) (ix2 o d) (fun b => match b with
    | ⟨0, _⟩ => rfl
    | ⟨1, _⟩ => rfl)).trans ?_
  exact extractStridedSlice_apply ![0, 0] _ slices_S256x512_S256x256_0_0 (ix2 o d) (ix2 o (⟨d.val, by omega⟩ : Fin 512))
    (fun a => match a with
      | ⟨0, _⟩ => by show o.val = 0 + o.val; omega
      | ⟨1, _⟩ => by show d.val = 0 + d.val; omega)

/-- Window 3's array: entry `(d, o)` is `W1[o, 256 + d]`. -/
theorem V_w1h (c : Dev nD) (d o : Fin 256) :
    (V m c main_v5 : S256x256.Idx → EReal) (ix2 d o)
      = (m ((c : Thread nD τ).loc main_arg3) : S256x512.Idx → EReal) (ix2 o (⟨256 + d.val, by omega⟩ : Fin 512)) := by
  have e : @Eq (S256x256.Idx → EReal) (V m c main_v5)
      (truncf (F := Ideal) .bf16 (transpose S256x256 [1, 0] (extractStridedSlice S256x256 ![0, 256]
          (m ((c : Thread nD τ).loc main_arg3) : S256x512.Idx → EReal) slices_S256x512_S256x256_0_256)
          transposes_S256x256_S256x256_1_0) bitsLt_bf16_f32) := by
    dsimp only [Gen.V, Gen.hostOps0]
    after_results
  rw [e]
  -- the format change is the identity; the transpose swaps the coordinates; the slice starts at column 256
  refine (truncf_apply _ bitsLt_bf16_f32 (ix2 d o)).trans ?_
  refine (transpose_apply [1, 0] _ transposes_S256x256_S256x256_1_0 (ix2 d o) (ix2 o d) (fun b => match b with
    | ⟨0, _⟩ => rfl
    | ⟨1, _⟩ => rfl)).trans ?_
  exact extractStridedSlice_apply ![0, 256] _ slices_S256x512_S256x256_0_256 (ix2 o d)
    (ix2 o (⟨256 + d.val, by omega⟩ : Fin 512))
    (fun a => match a with
      | ⟨0, _⟩ => by show o.val = 0 + o.val; omega
      | ⟨1, _⟩ => by show 256 + d.val = 256 + d.val; rfl)

/-- Window 5's array: entry `(o, k)` is `W2[k, o]`. -/
theorem V_w2 (c : Dev nD) (o : Fin 256) (k : Fin 50) :
    (V m c main_v7 : S256x50.Idx → EReal) (ix2 o k)
      = (m ((c : Thread nD τ).loc main_arg5) : S50x256.Idx → EReal) (ix2 k o) := by
  have e : @Eq (S256x50.Idx → EReal) (V m c main_v7)
      (truncf (F := Ideal) .bf16 (transpose S256x50 [1, 0]
          (m ((c : Thread nD τ).loc main_arg5) : S50x256.Idx → EReal) transposes_S50x256_S256x50_1_0)
          bitsLt_bf16_f32) := by
    dsimp only [Gen.V, Gen.hostOps0]
    after_results
  rw [e]
  -- the format change is the identity; the transpose swaps the coordinates
  refine (truncf_apply _ bitsLt_bf16_f32 (ix2 o k)).trans ?_
  exact transpose_apply [1, 0] _ transposes_S50x256_S256x50_1_0 (ix2 o k) (ix2 k o) (fun b => match b with
    | ⟨0, _⟩ => rfl
    | ⟨1, _⟩ => rfl)

end Cert.HostPrefix

end
-- ==== Proof.BlockReads.lean ====
/-
  The blocks the kernel body is called with at grid point `t`, as the whole arrays read at that point.

  Point `t` (0 ≤ t < 32) stages sentences `16 t … 16 t + 15` of the feature array and of the head indices, and the
  whole of each weight array (the two halves of the first layer and the second layer transposed by the host
  operations before the call, the biases as they are).
-/
import proofs.«429871_j69801808495253_2_alg».proof.Proof.Gen.KernelIdeal.Frame
import proofs.«429871_j69801808495253_2_alg».proof.Proof.HostPrefix
import Idealize.ShloMosaic.Lib.Pipeline.Value
import Idealize.ShloMosaic.Lib.ValueIdx

noncomputable section

namespace Cert.BlockReads

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

theorem point_lt (t : Fin cfg0.N) : t.val < 32 := lt_of_lt_of_eq t.isLt N_0

/-- The printed index maps, decided over the grid: the first two windows move one block of sentences per point on their
    leading axis and stay at block 0 on the others; the weight windows stay at block 0 on every axis. -/
theorem idx_facts : ∀ t : Fin cfg0.N, win0_0.index t (0 : Fin 3) = t.val ∧ win0_0.index t (1 : Fin 3) = 0
    ∧ win0_0.index t (2 : Fin 3) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0 :=
  (by decide +kernel : ∀ t : Fin grid0.N, _)

/-- The feature block at point `t`. -/
theorem blk0 (c : Dev nD) (t : Fin cfg0.N) (a : Fin 16) (r : Fin 257) (d : Fin 256) :
    (iblk m c 0 t : S16x257x256.Idx → EReal) (ix3 a r d)
      = (m ((c : Thread nD τ).loc main_arg0) : S512x257x256.Idx → EReal)
          (ix3 (⟨16 * t.val + a.val, by have := point_lt t; omega⟩ : Fin 512) r d) := by
  obtain ⟨e0, e1, e2, -⟩ := idx_facts t
  show V m c main_arg0 (((cfg0.win 0).blk t).view.emb (ix3 a r d)) = _
  rw [V_main_arg0]
  refine congrArg _ (funext fun x => Fin.ext ?_)
  match x with
  | ⟨0, _⟩ => show win0_0.index t (0 : Fin 3) * 16 + 1 * a.val = 16 * t.val + a.val; omega
  | ⟨1, _⟩ => show win0_0.index t (1 : Fin 3) * 257 + 1 * r.val = r.val; omega
  | ⟨2, _⟩ => show win0_0.index t (2 : Fin 3) * 256 + 1 * d.val = d.val; omega

/-- The head-index block at point `t`. -/
theorem blk1 (c : Dev nD) (t : Fin cfg0.N) (a : Fin 16) (l : Fin 256) :
    (iblk m c 1 t : S16x256.Idx → BitVec 32) (ix2 a l)
      = (m ((c : Thread nD τ).loc main_arg1) : S512x256.Idx → BitVec 32)
          (ix2 (⟨16 * t.val + a.val, by have := point_lt t; omega⟩ : Fin 512) l) := by
  obtain ⟨-, -, -, e0, e1, -⟩ := idx_facts t
  show V m c main_arg1 (((cfg0.win 1).blk t).view.emb (ix2 a l)) = _
  rw [V_main_arg1]
  refine congrArg _ (funext fun x => Fin.ext ?_)
  match x with
  | ⟨0, _⟩ => show win0_1.index t (0 : Fin 2) * 16 + 1 * a.val = 16 * t.val + a.val; omega
  | ⟨1, _⟩ => show win0_1.index t (1 : Fin 2) * 256 + 1 * l.val = l.val; omega

/-- The first layer's weights against a token's own row, input-first: entry `(d, o)` is `W1[o, d]`. -/
theorem blk2 (c : Dev nD) (t : Fin cfg0.N) (d o : Fin 256) :
    (iblk m c 2 t : S256x256.Idx → EReal) (ix2 d o)
      = (m ((c : Thread nD τ).loc main_arg3) : S256x512.Idx → EReal) (ix2 o (⟨d.val, by omega⟩ : Fin 512)) := by
  obtain ⟨-, -, -, -, -, e0, e1, -⟩ := idx_facts t
  show V m c main_v2 (((cfg0.win 2).blk t).view.emb (ix2 d o)) = _
  -- the one block is the whole array; what the host operations left there is the transposed first half of `W1`
  refine Eq.trans (congrArg (V m c main_v2 : S256x256.Idx → EReal) (funext fun x => Fin.ext ?_))
    (Cert.HostPrefix.V_w1d m c d o)
  match x with
  | ⟨0, _⟩ => show win0_2.index t (0 : Fin 2) * 256 + 1 * d.val = d.val; omega
  | ⟨1, _⟩ => show win0_2.index t (1 : Fin 2) * 256 + 1 * o.val = o.val; omega

/-- The first layer's weights against the head's row: entry `(d, o)` is `W1[o, 256 + d]`. -/
theorem blk3 (c : Dev nD) (t : Fin cfg0.N) (d o : Fin 256) :
    (iblk m c 3 t : S256x256.Idx → EReal) (ix2 d o)
      = (m ((c : Thread nD τ).loc main_arg3) : S256x512.Idx → EReal) (ix2 o (⟨256 + d.val, by omega⟩ : Fin 512)) := by
  obtain ⟨-, -, -, -, -, -, -, e0, e1, -⟩ := idx_facts t
  show V m c main_v5 (((cfg0.win 3).blk t).view.emb (ix2 d o)) = _
  -- the one block is the whole array; what the host operations left there is the transposed second half of `W1`
  refine Eq.trans (congrArg (V m c main_v5 : S256x256.Idx → EReal) (funext fun x => Fin.ext ?_))
    (Cert.HostPrefix.V_w1h m c d o)
  match x with
  | ⟨0, _⟩ => show win0_3.index t (0 : Fin 2) * 256 + 1 * d.val = d.val; omega
  | ⟨1, _⟩ => show win0_3.index t (1 : Fin 2) * 256 + 1 * o.val = o.val; omega

/-- The first layer's bias. -/
theorem blk4 (c : Dev nD) (t : Fin cfg0.N) (o : Fin 256) :
    (iblk m c 4 t : S256.Idx → EReal) (ix1 o) = (m ((c : Thread nD τ).loc main_arg4) : S256.Idx → EReal) (ix1 o) := by
  obtain ⟨-, -, -, -, -, -, -, -, -, e0, -⟩ := idx_facts t
  show V m c main_arg4 (((cfg0.win 4).blk t).view.emb (ix1 o)) = _
  rw [V_main_arg4]
  refine congrArg _ (funext fun x => Fin.ext ?_)
  match x with
  | ⟨0, _⟩ => show win0_4.index t (0 : Fin 1) * 256 + 1 * o.val = o.val; omega

/-- The second layer's weights, input-first: entry `(o, j)` is `W2[j, o]`. -/
theorem blk5 (c : Dev nD) (t : Fin cfg0.N) (o : Fin 256) (j : Fin 50) :
    (iblk m c 5 t : S256x50.Idx → EReal) (ix2 o j)
      = (m ((c : Thread nD τ).loc main_arg5) : S50x256.Idx → EReal) (ix2 j o) := by
  obtain ⟨-, -, -, -, -, -, -, -, -, -, e0, e1, -⟩ := idx_facts t
  show V m c main_v7 (((cfg0.win 5).blk t).view.emb (ix2 o j)) = _
  -- the one block is the whole array; what the host operations left there is `W2` transposed
  refine Eq.trans (congrArg (V m c main_v7 : S256x50.Idx → EReal) (funext fun x => Fin.ext ?_))
    (Cert.HostPrefix.V_w2 m c o j)
  match x with
  | ⟨0, _⟩ => show win0_5.index t (0 : Fin 2) * 256 + 1 * o.val = o.val; omega
  | ⟨1, _⟩ => show win0_5.index t (1 : Fin 2) * 50 + 1 * j.val = j.val; omega

/-- The second layer's bias. -/
theorem blk6 (c : Dev nD) (t : Fin cfg0.N) (j : Fin 50) :
    (iblk m c 6 t : S50.Idx → EReal) (ix1 j) = (m ((c : Thread nD τ).loc main_arg6) : S50.Idx → EReal) (ix1 j) := by
  obtain ⟨-, -, -, -, -, -, -, -, -, -, -, -, e0⟩ := idx_facts t
  show V m c main_arg6 (((cfg0.win 6).blk t).view.emb (ix1 j)) = _
  rw [V_main_arg6]
  refine congrArg _ (funext fun x => Fin.ext ?_)
  match x with
  | ⟨0, _⟩ => show win0_6.index t (0 : Fin 1) * 50 + 1 * j.val = j.val; omega

end Cert.BlockReads

end
-- ==== Proof.KernelValue.lean ====
/-
  The kernel's result array is the specification.

  At grid point `t` the body leaves in the output block, at every index `(a, l, j)` of the block, the
  specification at sentence `16 t + a` (each of the body's two trips gives it on its own eight sentences). The
  write-back puts that block at sentences `16 t … 16 t + 15` of the result array, and the 32 points' blocks
  cover all 512 sentences (sentence `n` lies in the block of point `n / 16`): so the array ends holding the
  specification everywhere.
-/
import proofs.«429871_j69801808495253_2_alg».proof.Proof.Gen.KernelIdeal.Value
import proofs.«429871_j69801808495253_2_alg».proof.Proof.RunPieces
import proofs.«429871_j69801808495253_2_alg».proof.Proof.TripValue
import proofs.«429871_j69801808495253_2_alg».proof.Proof.BlockReads
import proofs.«429871_j69801808495253_2_alg».proof.Proof.Spec
import Idealize.ShloMosaic.Lib.Pipeline.Value

set_option maxRecDepth 16384

noncomputable section

namespace Cert.KernelValue

open Cert.KernelIdeal Cert.KernelIdeal.Gen Cert.KernelIdeal.Value Cert.RunPieces Cert.BlockReads
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The head indices of core `c`'s arguments lie in `[0, 257)`. -/
def InRange : Prop :=
  ∀ (c : Dev nD) (n : Fin 512) (l : Fin 256),
    0 ≤ ((m ((c : Thread nD τ).loc main_arg1) : S512x256.Idx → BitVec 32) (ix2 n l)).toInt
      ∧ ((m ((c : Thread nD τ).loc main_arg1) : S512x256.Idx → BitVec 32) (ix2 n l)).toInt < 257

/-- The specification of core `c`'s argument arrays. -/
def GK (c : Dev nD) : S512x256x50.Idx → EReal :=
  Cert.Spec.G (m ((c : Thread nD τ).loc main_arg0)) (m ((c : Thread nD τ).loc main_arg1))
    (m ((c : Thread nD τ).loc main_arg3)) (m ((c : Thread nD τ).loc main_arg4))
    (m ((c : Thread nD τ).loc main_arg5)) (m ((c : Thread nD τ).loc main_arg6))

/-- The output window's block index at point `t` is `(t, 0, 0)` (decided over the 32 points). -/
theorem idx7 : ∀ t : Fin cfg0.N, win0_7.index t (0 : Fin 3) = t.val ∧ win0_7.index t (1 : Fin 3) = 0
    ∧ win0_7.index t (2 : Fin 3) = 0 :=
  (by decide +kernel : ∀ t : Fin grid0.N, _)

/-- Where element `(p, l, j)` of trip `k`'s store lands in the result array: sentence `16 t + 8 k + p`. -/
theorem out_idx (t : Fin cfg0.N) (k : Fin k0_t1_loop.trips) (p : Fin 8) (l : Fin 256) (j : Fin 50) :
    ((cfg0.win 7).blk t).view.emb ((outRect k).emb (ix3 p l j))
      = (ix3 (⟨16 * t.val + (8 * k.val + p.val), by have := point_lt t; have := Cert.TripValue.trip_lt k; omega⟩ : Fin 512) l j
          : S512x256x50.Idx) := by
  funext a; apply Fin.ext
  obtain ⟨e0, e1, e2⟩ := idx7 t
  have e := k0_off3_eq k
  match a with
  | ⟨0, _⟩ =>
    show win0_7.index t (0 : Fin 3) * 16 + 1 * ((k0_off3 k) 0 + 1 * p.val) = 16 * t.val + (8 * k.val + p.val)
    rw [e0, e]; show t.val * 16 + 1 * (8 * k.val + 1 * p.val) = _; omega
  | ⟨1, _⟩ =>
    show win0_7.index t (1 : Fin 3) * 256 + 1 * ((k0_off3 k) 1 + 1 * l.val) = l.val
    rw [e1, e]; show 0 * 256 + 1 * (0 + 1 * l.val) = _; omega
  | ⟨2, _⟩ =>
    show win0_7.index t (2 : Fin 3) * 50 + 1 * ((k0_off3 k) 2 + 1 * j.val) = j.val
    rw [e2, e]; show 0 * 50 + 1 * (0 + 1 * j.val) = _; omega

/-- WHAT POINT `t` WRITES BACK is block `t` of the specification. -/
theorem flushed_eq (hr : InRange m) (c : Dev nD) (t : Fin cfg0.N) :
    (dats m 0 c).flushed 7 t = ((cfg0.win 7).blk t).view.read (Elt Ideal) (GK m c) := by
  rw [flushed7_A]
  rw [Cert.RunPieces.out_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t) (iblk m c 6 t)
    (fun y : S16x256x50.Idx => GK m c (((cfg0.win 7).blk t).view.emb y)) ?hG]
  · rfl
  · intro k x
    obtain ⟨p, l, j, rfl⟩ : ∃ (p : Fin 8) (l : Fin 256) (j : Fin 50), x = ix3 p l j := ⟨x 0, x 1, x 2, eq_ix3 x⟩
    rw [out_idx]
    exact Cert.TripValue.trip_value (m ((c : Thread nD τ).loc main_arg0)) (m ((c : Thread nD τ).loc main_arg1))
      (m ((c : Thread nD τ).loc main_arg3)) (m ((c : Thread nD τ).loc main_arg4))
      (m ((c : Thread nD τ).loc main_arg5)) (m ((c : Thread nD τ).loc main_arg6)) (hr c)
      (iblk m c 0 t) (iblk m c 1 t) (iblk m c 2 t) (iblk m c 3 t) (iblk m c 4 t) (iblk m c 5 t) (iblk m c 6 t) (⟨t.val, point_lt t⟩ : Fin 32)
      (blk0 m c t) (blk1 m c t) (blk2 m c t) (blk3 m c t) (blk4 m c t) (blk5 m c t) (blk6 m c t) k p l j

/-- Every sentence lies in some point's block: sentence `n` in the block of point `n / 16`. -/
theorem covered (i : S512x256x50.Idx) :
    ∃ t : Fin cfg0.N, (cfg0.win 7).flush t = true ∧ i ∈ ((cfg0.win 7).blk t).view.set := by
  have h0 : (i 0).val < 512 := (i 0).isLt
  have h1 : (i 1).val < 256 := (i 1).isLt
  have h2 : (i 2).val < 50 := (i 2).isLt
  let t : Fin cfg0.N := ⟨(i 0).val / 16, by rw [show cfg0.N = 32 from N_0]; omega⟩
  obtain ⟨e0, e1, e2⟩ := idx7 t
  refine ⟨t, flush0_7 t, ?_⟩
  show i ∈ ((View.whole main_v8).slice (win0_7.rect t)).set
  rw [View.set_slice_whole, Rect.mem_set_unit]
  intro a
  match a with
  | ⟨0, _⟩ =>
    show win0_7.index t (0 : Fin 3) * 16 ≤ (i 0).val ∧ (i 0).val < win0_7.index t (0 : Fin 3) * 16 + 16
    rw [e0]; show (i 0).val / 16 * 16 ≤ (i 0).val ∧ (i 0).val < (i 0).val / 16 * 16 + 16; omega
  | ⟨1, _⟩ =>
    show win0_7.index t (1 : Fin 3) * 256 ≤ (i 1).val ∧ (i 1).val < win0_7.index t (1 : Fin 3) * 256 + 256
    rw [e1]; omega
  | ⟨2, _⟩ =>
    show win0_7.index t (2 : Fin 3) * 50 ≤ (i 2).val ∧ (i 2).val < win0_7.index t (2 : Fin 3) * 50 + 50
    rw [e2]; omega

/-- THE RESULT ARRAY after the run is the specification. -/
theorem final (hr : InRange m) (c : Dev nD) : (dats m 0 c).arrAt 7 cfg0.N = GK m c :=
  (dats m 0 c).arrAt_eq_of_cover 7 (GK m c) (fun t _ => flushed_eq m hr c t) covered

/-- The run, read: the result array at the specification, the arguments unchanged. -/
theorem run (hr : InRange m) : θ_run defs (onTc (τ := τ) (main (F := Ideal))) ⟨m, fun _ => 0, ρ⟩ fun r => ∀ c : Dev nD,
      r.2.mem ((c : Thread nD τ).loc main_v8) = GK m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m hr c), (h c).2⟩) (run_blocks m ρ)

end Cert.KernelValue

end
-- ==== Proof.lean ====
/-
  The certificate: a label predictor's kernel against its jnp reference, over the extended reals.

  Both programs score each token `l` of each sentence `n` from two feature rows, the token's own (row `l + 1`)
  and its head's (row `heads[n, l]`), through a two-layer perceptron (Proof/Spec.lean). The reference gathers the
  head's row by index and multiplies the joined 512-wide row by `W1`; the kernel gathers by a one-hot product
  over rows 0..255 plus a correction for row 256, and multiplies the two 256-wide rows by the two halves of `W1`.
  The two agree wherever every head index lies in `[0, 257)` — the precondition's last two conjuncts, stated with
  the inputs' finiteness (which the argument never uses: the sums are re-arranged, never cancelled).

  The pieces: Proof/HeadsRange.lean reads the index range off the precondition; Proof/RefValue.lean shows the
  reference's result is the specification; Proof/Payload.lean, Proof/TripValue.lean, Proof/RunPieces.lean,
  Proof/BlockReads.lean, Proof/HostPrefix.lean and Proof/KernelValue.lean show the kernel's result array is the
  specification; the frames are the generated ones, the reference's its run with the result dropped.
-/
import proofs.«429871_j69801808495253_2_alg».proof.Defs
import proofs.«429871_j69801808495253_2_alg».proof.Proof.Gen.Kernel
import proofs.«429871_j69801808495253_2_alg».proof.Proof.Gen.Kernel.Skeleton
import proofs.«429871_j69801808495253_2_alg».proof.Proof.Gen.Kernel.Loops
import proofs.«429871_j69801808495253_2_alg».proof.Proof.Gen.Kernel.Launch
import proofs.«429871_j69801808495253_2_alg».proof.Proof.Gen.Kernel.Points
import proofs.«429871_j69801808495253_2_alg».proof.Proof.Gen.Kernel.Frame
import proofs.«429871_j69801808495253_2_alg».proof.Proof.Gen.KernelIdeal
import proofs.«429871_j69801808495253_2_alg».proof.Proof.Gen.KernelIdeal.Skeleton
import proofs.«429871_j69801808495253_2_alg».proof.Proof.Gen.KernelIdeal.Loops
import proofs.«429871_j69801808495253_2_alg».proof.Proof.Gen.KernelIdeal.Launch
import proofs.«429871_j69801808495253_2_alg».proof.Proof.Gen.KernelIdeal.Points
import proofs.«429871_j69801808495253_2_alg».proof.Proof.Gen.KernelIdeal.Frame
import proofs.«429871_j69801808495253_2_alg».proof.Proof.Gen.ReferenceIdeal
import proofs.«429871_j69801808495253_2_alg».proof.Proof.Gen.Pre_finite_inputs
import proofs.«429871_j69801808495253_2_alg».proof.Proof.Gen.KernelIdeal.Value
import proofs.«429871_j69801808495253_2_alg».proof.Proof.RefRun
import proofs.«429871_j69801808495253_2_alg».proof.Proof.RefRead
import proofs.«429871_j69801808495253_2_alg».proof.Proof.HeadsRange
import proofs.«429871_j69801808495253_2_alg».proof.Proof.RefValue
import proofs.«429871_j69801808495253_2_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Under the precondition every head index lies in `[0, 257)`. -/
theorem in_range (m : (ℓ : Loc Cert.KernelIdeal.nD Cert.KernelIdeal.τ Cert.KernelIdeal.sig) → Buf (Elt Ideal) ℓ)
    (hpre : Cert.Pre_KernelIdeal m) : Cert.KernelValue.InRange m := fun c n l =>
  Cert.HeadsRange.heads_range (F := Ideal) _ _ _ _ _ _ _ (hpre c) n l

/-- From memories agreeing on the arguments, both runs end with the result array at the specification of the
    kernel's arguments: the kernel's by Proof/KernelValue.lean, the reference's by its run and Proof/RefValue.lean. -/
theorem algebraic : Cert.algebraic_KernelIdeal_ReferenceIdeal := by
  intro m ρ m' ρ' hpre hagree
  have hr := in_range m hpre
  refine ⟨fun c => Cert.KernelValue.GK m c, Cert.KernelValue.run m ρ hr, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, (hagree c).1, (hagree c).2.1, (hagree c).2.2.2.1,
    (hagree c).2.2.2.2.1, (hagree c).2.2.2.2.2.1, (hagree c).2.2.2.2.2.2]
  exact Cert.RefValue.ref_eq _ _ _ _ _ _ (hr c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
